-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x64 : Shape := ⟨3, ![128, 2048, 64]⟩
abbrev S_ : Shape := ⟨0, ![]⟩

class Facts : Prop where
  bcast_S_S128x2048x64 : S_.BroadcastsInDim S128x2048x64 (![] : Fin 0 → Fin S128x2048x64.rank)
  reducesTo_S128x2048x64_S_d0_1_2 : S128x2048x64.ReducesTo [0, 1, 2] S_
  h_S_ : 0 < S_.numel

variable [Facts]

def fn {F : FTy → Type} [FloatOps F] (main_arg0 : FVec F S128x2048x64 .f32) : IVec S_ 1 :=
  let main_v0 : FVec F S128x2048x64 .f32 := Host.absf main_arg0
  let main_cst : FVec F S_ .f32 := constant S_ .f32 0x7F800000#32
  let main_v1 : FVec F S128x2048x64 .f32 := broadcastInDim S128x2048x64 ![] bcast_S_S128x2048x64 main_cst
  let main_v2 : IVec S128x2048x64 1 := cmpf .olt main_v0 main_v1
  let main_c : IVec S_ 1 := constantI S_ 1 1#1
  let main_v3 : IVec S_ 1 := (fun x v => Host.reduce IntOp.andi x v reducesTo_S128x2048x64_S_d0_1_2 h_S_) main_v2 main_c
  main_v3
-- ==== Kernel.lean ====
abbrev S128x2048x64 : Shape := ⟨3, ![128, 2048, 64]⟩
abbrev S128x2048x128 : Shape := ⟨3, ![128, 2048, 128]⟩
abbrev S64x128x64 : Shape := ⟨3, ![64, 128, 64]⟩
abbrev S64x128x128 : Shape := ⟨3, ![64, 128, 128]⟩
abbrev S64x64 : Shape := ⟨2, ![64, 64]⟩
abbrev S64x1x64 : Shape := ⟨3, ![64, 1, 64]⟩

abbrev nBuf : Space → Nat
  | .hbm => 2
  | .vmem => 6
  | .smem => 0
  | _ => 0

abbrev bufTy : (tb : Table) → Fin (tcTables nBuf tb) → BufTy
  | .hbm, ⟨0, _⟩ => ⟨S128x2048x64, .f32⟩
  | .hbm, ⟨1, _⟩ => ⟨S128x2048x128, .f32⟩
  | .local _ .vmem, ⟨0, _⟩ => ⟨S64x128x64, .f32⟩
  | .local _ .vmem, ⟨1, _⟩ => ⟨S64x128x64, .f32⟩
  | .local _ .vmem, ⟨2, _⟩ => ⟨S64x128x128, .f32⟩
  | .local _ .vmem, ⟨3, _⟩ => ⟨S64x128x128, .f32⟩
  | .local _ .vmem, ⟨4, _⟩ => ⟨S64x64, .f32⟩
  | .local _ .vmem, ⟨5, _⟩ => ⟨S64x64, .i32⟩
  | _, _ => ⟨S128x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x128x64_S64x128x64_0_0_0 : ∀ a, (![0, 0, 0] : Fin 3 → Nat) a + S64x128x64.size a ≤ S64x128x64.size a
  h_S64x128x64 : 0 < S64x128x64.numel
  rotates_S64x128x64_d1 : S64x128x64.Rotates 1 none
  iota_S64x128x64_d1_w32 : S64x128x64.Iotas .tc 32 [1]
  shapeCasts_S64x64_S64x1x64 : S64x64.ShapeCasts S64x1x64
  shapeCasts_S64x1x64_S64x1x64 : S64x1x64.ShapeCasts S64x1x64
  broadcasts_S64x1x64_S64x128x64 : S64x1x64.Broadcasts S64x128x64
  natLt_1_32 : 1 < 32
  inb_S64x128x128_S64x128x64_0_0_0 : ∀ a, (![0, 0, 0] : Fin 3 → Nat) a + S64x128x64.size a ≤ S64x128x128.size a
  inb_S64x128x128_S64x128x64_0_0_64 : ∀ a, (![0, 0, 64] : Fin 3 → Nat) a + S64x128x64.size a ≤ S64x128x128.size a
  slices_S64x128x64_o0_127_0_S64x1x64 : S64x128x64.Slices ![0, 127, 0] S64x1x64
  shapeCasts_S64x1x64_S64x64 : S64x1x64.ShapeCasts S64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x64.size a ≤ S128x2048x64.size a
  hwx0_0 : ∀ i : grid0.Coords, EltTy.bits .f32 = 32 ∨ (Rect.block (s := S128x2048x64) S64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x128.size a ≤ S128x2048x128.size a
  hwx0_1 : ∀ i : grid0.Coords, EltTy.bits .f32 = 32 ∨ (Rect.block (s := S128x2048x128) S64x128x128.size (cc0_transform_1 i) (hinb0_1 i)).WholeWords (EltTy.packing .f32)

variable [Facts₀]

abbrev win0_0 : Pipeline.Window sig grid0 :=
  Pipeline.Window.ofSpec (Memref.whole main_arg0) S64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x2048x64 : Shape := ⟨3, ![128, 2048, 64]⟩
abbrev S_ : Shape := ⟨0, ![]⟩
abbrev S2048 : Shape := ⟨1, ![2048]⟩
abbrev S1x2048x1 : Shape := ⟨3, ![1, 2048, 1]⟩
abbrev S128x2048x64x1 : Shape := ⟨4, ![128, 2048, 64, 1]⟩
abbrev S1 : Shape := ⟨1, ![1]⟩
abbrev S1x1x1x1 : Shape := ⟨4, ![1, 1, 1, 1]⟩
abbrev S128x2048x128 : Shape := ⟨3, ![128, 2048, 128]⟩

abbrev nBuf : Space → Nat
  | .hbm => 44
  | .vmem => 0
  | .smem => 0
  | _ => 0

abbrev bufTy : (tb : Table) → Fin (tcTables nBuf tb) → BufTy
  | .hbm, ⟨0, _⟩ => ⟨S128x2048x64, .f32⟩
  | .hbm, ⟨1, _⟩ => ⟨S_, .f32⟩
  | .hbm, ⟨2, _⟩ => ⟨S128x2048x64, .f32⟩
  | .hbm, ⟨3, _⟩ => ⟨S128x2048x64, .i1⟩
  | .hbm, ⟨4, _⟩ => ⟨S2048, .i32⟩
  | .hbm, ⟨5, _⟩ => ⟨S1x2048x1, .i32⟩
  | .hbm, ⟨6, _⟩ => ⟨S_, .i32⟩
  | .hbm, ⟨7, _⟩ => ⟨S128x2048x64, .i32⟩
  | .hbm, ⟨8, _⟩ => ⟨S128x2048x64, .i32⟩
  | .hbm, ⟨9, _⟩ => ⟨S128x2048x64, .i32⟩
  | .hbm, ⟨10, _⟩ => ⟨S_, .i32⟩
  | .hbm, ⟨11, _⟩ => ⟨S_, .i32⟩
  | .hbm, ⟨12, _⟩ => ⟨S128x2048x64, .i32⟩
  | .hbm, ⟨13, _⟩ => ⟨S_, .i32⟩
  | .hbm, ⟨14, _⟩ => ⟨S128x2048x64, .i32⟩
  | .hbm, ⟨15, _⟩ => ⟨S128x2048x64, .i32⟩
  | .hbm, ⟨16, _⟩ => ⟨S_, .i32⟩
  | .hbm, ⟨17, _⟩ => ⟨S128x2048x64, .i32⟩
  | .hbm, ⟨18, _⟩ => ⟨S128x2048x64, .i1⟩
  | .hbm, ⟨19, _⟩ => ⟨S_, .i32⟩
  | .hbm, ⟨20, _⟩ => ⟨S128x2048x64, .i32⟩
  | .hbm, ⟨21, _⟩ => ⟨S128x2048x64, .i32⟩
  | .hbm, ⟨22, _⟩ => ⟨S128x2048x64, .i32⟩
  | .hbm, ⟨23, _⟩ => ⟨S128x2048x64x1, .i32⟩
  | .hbm, ⟨24, _⟩ => ⟨S1, .i32⟩
  | .hbm, ⟨25, _⟩ => ⟨S_, .i32⟩
  | .hbm, ⟨26, _⟩ => ⟨S128x2048x64x1, .i32⟩
  | .hbm, ⟨27, _⟩ => ⟨S128x2048x64x1, .i1⟩
  | .hbm, ⟨28, _⟩ => ⟨S1x1x1x1, .i32⟩
  | .hbm, ⟨29, _⟩ => ⟨S128x2048x64x1, .i32⟩
  | .hbm, ⟨30, _⟩ => ⟨S128x2048x64x1, .i1⟩
  | .hbm, ⟨31, _⟩ => ⟨S128x2048x64x1, .i1⟩
  | .hbm, ⟨32, _⟩ => ⟨S_, .i1⟩
  | .hbm, ⟨33, _⟩ => ⟨S128x2048x64, .i1⟩
  | .hbm, ⟨34, _⟩ => ⟨S128x2048x64, .f32⟩
  | .hbm, ⟨35, _⟩ => ⟨S_, .f32⟩
  | .hbm, ⟨36, _⟩ => ⟨S128x2048x64, .f32⟩
  | .hbm, ⟨37, _⟩ => ⟨S128x2048x64, .f32⟩
  | .hbm, ⟨38, _⟩ => ⟨S_, .i32⟩
  | .hbm, ⟨39, _⟩ => ⟨S128x2048x64, .i32⟩
  | .hbm, ⟨40, _⟩ => ⟨S128x2048x64, .i1⟩
  | .hbm, ⟨41, _⟩ => ⟨S128x2048x64, .f32⟩
  | .hbm, ⟨42, _⟩ => ⟨S128x2048x64, .f32⟩
  | .hbm, ⟨43, _⟩ => ⟨S128x2048x128, .f32⟩
  | _, _ => ⟨S128x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_call1_c : Ref sig .tc := ⟨.hbm, 10, rfl⟩
abbrev main_call1_v0 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_c_0 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_v5 : Ref sig .tc := ⟨.hbm, 23, rfl⟩
abbrev main_call2_c_1 : Ref sig .tc := ⟨.hbm, 24, rfl⟩
abbrev main_call2_c_2 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_3 : Ref sig .tc := ⟨.hbm, 32, rfl⟩
abbrev main_call2_v12 : Ref sig .tc := ⟨.hbm, 33, rfl⟩
abbrev main_call2_v13 : Ref sig .tc := ⟨.hbm, 34, rfl⟩
abbrev main_call2_cst : Ref sig .tc := ⟨.hbm, 35, rfl⟩
abbrev main_call2_v14 : Ref sig .tc := ⟨.hbm, 36, rfl⟩
abbrev main_v8 : Ref sig .tc := ⟨.hbm, 37, rfl⟩
abbrev main_c_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩

abbrev nD : Nat := 1
abbrev τ : Topo := Topo.v7x

variable {F : FTy → Type} [FloatOps F]

class Facts₀ : Prop where
  bcast_S_S128x2048x64 : S_.BroadcastsInDim S128x2048x64 (![] : Fin 0 → Fin S128x2048x64.rank)
  bcast_S2048_S1x2048x1_1 : S2048.BroadcastsInDim S1x2048x1 (![1] : Fin 1 → Fin S1x2048x1.rank)
  bcast_S1x2048x1_S128x2048x64_0_1_2 : S1x2048x1.BroadcastsInDim S128x2048x64 (![0, 1, 2] : Fin 3 → Fin S128x2048x64.rank)
  bcast_S_S_ : S_.BroadcastsInDim S_ (![] : Fin 0 → Fin S_.rank)
  reduceWindows_S128x2048x64_S128x2048x64_w1s1p0_0_w2048s1p2047_0_w1s1p0_0 : S128x2048x64.ReduceWindows (![1, 2048, 1] : Fin 3 → Nat) ![1, 1, 1] ![0, 2047, 0] ![0, 0, 0] S128x2048x64
  h_S_ : 0 < S_.numel
  shapeCasts_S128x2048x64_S128x2048x64x1 : S128x2048x64.ShapeCasts S128x2048x64x1
  bcast_S_S128x2048x64x1 : S_.BroadcastsInDim S128x2048x64x1 (![] : Fin 0 → Fin S128x2048x64x1.rank)
  bcast_S1_S1x1x1x1_3 : S1.BroadcastsInDim S1x1x1x1 (![3] : Fin 1 → Fin S1x1x1x1.rank)
  bcast_S1x1x1x1_S128x2048x64x1_0_1_2_3 : S1x1x1x1.BroadcastsInDim S128x2048x64x1 (![0, 1, 2, 3] : Fin 4 → Fin S128x2048x64x1.rank)
  reducesTo_S128x2048x64x1_S128x2048x64_d3 : S128x2048x64x1.ReducesTo [3] S128x2048x64
  concatenates_S128x2048x64_S128x2048x64_S128x2048x128_d2 : Shape.Concatenates [S128x2048x64, S128x2048x64] S128x2048x128 2
  gather_S128x2048x64_S128x2048x64x1_S128x2048x64_n_1_02_02_1_3_111_wf : GatherDims.WF S128x2048x64 S128x2048x64x1 S128x2048x64 [] [1] [0, 2] [1] [0, 2] 3 ![1, 1, 1]

variable [Facts₀]

def gather_S128x2048x64_S128x2048x64x1_S128x2048x64_n_1_02_02_1_3_111 : GatherDims S128x2048x64 S128x2048x64x1 S128x2048x64 where
  offsetDims := []
  collapsedSliceDims := [1]
  operandBatchingDims := [0, 2]
  startIndicesBatchingDims := [0, 2]
  startIndexMap := [1]
  indexVectorDim := 3
  sliceSizes := ![1, 1, 1]
  wf := gather_S128x2048x64_S128x2048x64x1_S128x2048x64_n_1_02_02_1_3_111_wf

class Facts : Prop extends Facts₀ where

variable [Facts]
-- ==== Proof.LastValid.lean ====
/-
  The combinatorics of forward fill along one column.

  For a predicate V on positions (here: "the entry at this time step is observed, not missing"),
  lastGe V lo t is the greatest position i with lo ≤ i ≤ t at which V holds, if there is one.
  Forward fill replaces a missing entry by the entry at lastGe V 0 t.  Two facts carry the whole
  comparison: a window splits at any interior point into its upper part, which wins when it is
  non-empty, and its lower part (lastGe_split); and lastGe is the maximum of the valid positions
  of its window (the characterisations eq_some_iff, eq_none_iff).
-/
import Mathlib.Data.Option.Basic
import Mathlib.Order.Basic
import Mathlib.Tactic.SplitIfs
import Mathlib.Tactic.Cases

namespace Cert.FFill

variable (V : ℕ → Prop) [DecidablePred V]

/-- The greatest position in [lo, t] at which V holds. -/
def lastGe (lo : ℕ) : ℕ → Option ℕ
  | 0 => if lo = 0 ∧ V 0 then some 0 else none
  | t + 1 => if t + 1 < lo then none else if V (t + 1) then some (t + 1) else lastGe lo t

variable {V}

theorem lastGe_eq_some_iff (lo : ℕ) : ∀ (t i : ℕ),
    lastGe V lo t = some i ↔ (lo ≤ i ∧ i ≤ t ∧ V i ∧ ∀ j, i < j → j ≤ t → ¬ V j) := by
  intro t
  induction t with
  | zero =>
    intro i
    unfold lastGe
    split_ifs with h
    · constructor
      · intro hi
        have : i = 0 := by cases hi; rfl
        subst this
        exact ⟨by omega, Nat.le_refl _, h.2, fun j hj hj' => by omega⟩
      · rintro ⟨h1, h2, _, _⟩
        have : i = 0 := by omega
        subst this; rfl
    · constructor
      · intro hi; cases hi
      · rintro ⟨h1, h2, h3, _⟩
        have : i = 0 := by omega
        subst this
        exact absurd ⟨by omega, h3⟩ h
  | succ t ih =>
    intro i
    unfold lastGe
    split_ifs with h1 h2
    · constructor
      · intro hi; cases hi
      · rintro ⟨a, b, _, _⟩; omega
    · constructor
      · intro hi
        have : i = t + 1 := by cases hi; rfl
        subst this
        exact ⟨by omega, Nat.le_refl _, h2, fun j hj hj' => by omega⟩
      · rintro ⟨a, b, c, d⟩
        by_cases hlt : i < t + 1
        · exact absurd h2 (d (t + 1) hlt (Nat.le_refl _))
        · have : i = t + 1 := by omega
          subst this; rfl
    · rw [ih i]
      constructor
      · rintro ⟨a, b, c, d⟩
        refine ⟨a, by omega, c, fun j hj hj' => ?_⟩
        by_cases hjt : j = t + 1
        · subst hjt; exact h2
        · exact d j hj (by omega)
      · rintro ⟨a, b, c, d⟩
        have hne : i ≠ t + 1 := fun e => h2 (e ▸ c)
        exact ⟨a, by omega, c, fun j hj hj' => d j hj (by omega)⟩

theorem lastGe_eq_none_iff (lo t : ℕ) :
    lastGe V lo t = none ↔ ∀ j, lo ≤ j → j ≤ t → ¬ V j := by
  constructor
  · intro h j hlo hjt hV
    -- the greatest valid position in [lo, t] exists: take it from j upwards
    have : ∃ i, lo ≤ i ∧ i ≤ t ∧ V i ∧ ∀ k, i < k → k ≤ t → ¬ V k := by
      -- strong induction on t - j
      have key : ∀ n j, t - j ≤ n → lo ≤ j → j ≤ t → V j →
          ∃ i, lo ≤ i ∧ i ≤ t ∧ V i ∧ ∀ k, i < k → k ≤ t → ¬ V k := by
        intro n
        induction n with
        | zero =>
          intro j hn hlo hjt hV
          exact ⟨j, hlo, hjt, hV, fun k hk hkt => by omega⟩
        | succ n ihn =>
          intro j hn hlo hjt hV
          by_cases hex : ∃ k, j < k ∧ k ≤ t ∧ V k
          · obtain ⟨k, hk1, hk2, hk3⟩ := hex
            exact ihn k (by omega) (by omega) hk2 hk3
          · exact ⟨j, hlo, hjt, hV, fun k hk hkt hVk => hex ⟨k, hk, hkt, hVk⟩⟩
      exact key (t - j) j (Nat.le_refl _) hlo hjt hV
    obtain ⟨i, hi⟩ := this
    have := (lastGe_eq_some_iff lo t i).2 hi
    rw [h] at this; cases this
  · intro h
    cases hl : lastGe V lo t with
    | none => rfl
    | some i =>
      obtain ⟨a, b, c, _⟩ := (lastGe_eq_some_iff lo t i).1 hl
      exact absurd c (h i a b)

/-- A window [lo', t] split at lo: a valid position of the upper part [lo, t] wins, and otherwise the answer is
    that of the lower part [lo', lo - 1]. -/
theorem lastGe_split {lo' lo t : ℕ} (h1 : lo' ≤ lo) (h2 : lo ≤ t + 1) :
    lastGe V lo' t = match lastGe V lo t with
      | some i => some i
      | none => if lo = 0 then none else lastGe V lo' (lo - 1) := by
  cases hu : lastGe V lo t with
  | some i =>
    obtain ⟨a, b, c, d⟩ := (lastGe_eq_some_iff lo t i).1 hu
    exact (lastGe_eq_some_iff lo' t i).2 ⟨by omega, b, c, d⟩
  | none =>
    have hn := (lastGe_eq_none_iff lo t).1 hu
    show lastGe V lo' t = if lo = 0 then none else lastGe V lo' (lo - 1)
    split_ifs with hz
    · subst hz
      have : lo' = 0 := by omega
      subst this; exact hu
    · cases hl : lastGe V lo' (lo - 1) with
      | none =>
        have hn' := (lastGe_eq_none_iff lo' (lo - 1)).1 hl
        refine (lastGe_eq_none_iff lo' t).2 fun j hj hjt => ?_
        by_cases hjl : lo ≤ j
        · exact hn j hjl hjt
        · exact hn' j hj (by omega)
      | some i =>
        obtain ⟨a, b, c, d⟩ := (lastGe_eq_some_iff lo' (lo - 1) i).1 hl
        refine (lastGe_eq_some_iff lo' t i).2 ⟨a, by omega, c, fun j hj hjt => ?_⟩
        by_cases hjl : lo ≤ j
        · exact hn j hjl hjt
        · exact d j hj (by omega)

/-- lastGe only looks at V inside its window. -/
theorem lastGe_congr {V' : ℕ → Prop} [DecidablePred V'] {lo t : ℕ}
    (h : ∀ j, lo ≤ j → j ≤ t → (V j ↔ V' j)) : lastGe V lo t = lastGe V' lo t := by
  cases hl : lastGe V' lo t with
  | none =>
    have hn := (lastGe_eq_none_iff lo t).1 hl
    exact (lastGe_eq_none_iff lo t).2 fun j a b hv => hn j a b ((h j a b).1 hv)
  | some i =>
    obtain ⟨a, b, c, d⟩ := (lastGe_eq_some_iff lo t i).1 hl
    exact (lastGe_eq_some_iff lo t i).2 ⟨a, b, (h i a b).2 c, fun j hj hjt hv => d j hj hjt ((h j (by omega) hjt).1 hv)⟩

theorem lastGe_isSome_iff (lo t : ℕ) :
    (lastGe V lo t).isSome = true ↔ ∃ j, lo ≤ j ∧ j ≤ t ∧ V j := by
  constructor
  · intro h
    obtain ⟨i, hi⟩ := Option.isSome_iff_exists.1 h
    obtain ⟨a, b, c, _⟩ := (lastGe_eq_some_iff lo t i).1 hi
    exact ⟨i, a, b, c⟩
  · rintro ⟨j, a, b, c⟩
    cases hl : lastGe V lo t with
    | none => exact absurd c ((lastGe_eq_none_iff lo t).1 hl j a b)
    | some i => rfl

/-- A window of one position. -/
theorem lastGe_self (t : ℕ) : lastGe V t t = if V t then some t else none := by
  split_ifs with h
  · exact (lastGe_eq_some_iff t t t).2 ⟨Nat.le_refl _, Nat.le_refl _, h, fun j a b => by omega⟩
  · exact (lastGe_eq_none_iff t t).2 fun j a b => by
      have : j = t := by omega
      subst this; exact h

theorem lastGe_bounds {lo t i : ℕ} (h : lastGe V lo t = some i) : lo ≤ i ∧ i ≤ t ∧ V i :=
  let ⟨a, b, c, _⟩ := (lastGe_eq_some_iff lo t i).1 h
  ⟨a, b, c⟩

end Cert.FFill
-- ==== Proof.Spec.lean ====
/-
  What both programs compute, as one function of the input array x : f32[128, 2048, 64].

  An entry is MISSING when it compares equal to zero.  Along the time axis (axis 1), separately for each
  batch row b and feature f, the first 64 output features hold the forward fill: the entry at the greatest
  observed (not missing) time step at or before t, and the entry at t itself when no earlier step is observed.
  The last 64 output features hold the indicator of missingness, 1 or 0.
-/
import Idealize.ShloMosaic.PureOps.Ideal
import Idealize.ShloMosaic.Lib.ValueIdx
import proofs.«111630_j72773925864084_1_alg».proof.Proof.LastValid

noncomputable section

namespace Cert.FFill

open Idealize.ShloMosaic Idealize.ShloMosaic.ValueIdx

abbrev SX : Shape := ⟨3, ![128, 2048, 64]⟩
abbrev SY : Shape := ⟨3, ![128, 2048, 128]⟩

/-- The comparison of an entry with zero, as the one-bit word both programs branch on. -/
def missBit (v : Ideal .f32) : BitVec 1 :=
  FloatOps.cmpf (F := Ideal) .oeq v (FloatOps.ofBits (F := Ideal) .f32 0x00000000#32)

/-- Column (b, f) of x as a sequence in time (continued arbitrarily past the end). -/
def col (x : FVec Ideal SX .f32) (b : Fin 128) (f : Fin 64) (t : ℕ) : Ideal .f32 :=
  if h : t < 2048 then x (ix3 b ⟨t, h⟩ f) else x (ix3 b ⟨0, by decide⟩ f)

/-- Time step t of column (b, f) is observed. -/
def valid (x : FVec Ideal SX .f32) (b : Fin 128) (f : Fin 64) (t : ℕ) : Prop :=
  t < 2048 ∧ ¬ missBit (col x b f t) = 1#1

instance (x : FVec Ideal SX .f32) (b : Fin 128) (f : Fin 64) : DecidablePred (valid x b f) :=
  fun _ => inferInstanceAs (Decidable (_ ∧ _))

/-- The forward fill at (b, t, f). -/
def filled (x : FVec Ideal SX .f32) (b : Fin 128) (t : Fin 2048) (f : Fin 64) : Ideal .f32 :=
  match lastGe (valid x b f) 0 t.val with
  | some i => col x b f i
  | none => x (ix3 b t f)

/-- The missingness indicator of an entry, as a float. -/
def indicator (v : Ideal .f32) : Ideal .f32 := FloatOps.uitofp (F := Ideal) .f32 (missBit v)

/-- The result at (b, t, c): the fill for c < 64, the indicator of feature c - 64 otherwise. -/
def resultAt (x : FVec Ideal SX .f32) (b : Fin 128) (t : Fin 2048) (c : Fin 128) : Ideal .f32 :=
  if h : c.val < 64 then filled x b t ⟨c.val, h⟩
  else indicator (x (ix3 b t ⟨c.val - 64, by omega⟩))

/-- The whole result array. -/
def result (x : FVec Ideal SX .f32) : FVec Ideal SY .f32 := fun j => resultAt x (j 0) (j 1) (j 2)

theorem result_ix3 (x : FVec Ideal SX .f32) (b : Fin 128) (t : Fin 2048) (c : Fin 128) :
    result x (ix3 b t c) = resultAt x b t c := rfl

theorem col_of_lt (x : FVec Ideal SX .f32) (b : Fin 128) (f : Fin 64) (t : ℕ) (h : t < 2048) :
    col x b f t = x (ix3 b ⟨t, h⟩ f) := dif_pos h

end Cert.FFill

end
-- ==== Proof.BodyValue.lean ====
/-
  One grid point of the forward-fill kernel, as pure functions of the input block and the carry.

  The body takes a block x0 : f32[64, 128, 64] of 128 consecutive time steps and, per batch row and feature,
  a carry (cv, cf): the last observed value before the block and a flag saying whether there is one.
  Seven doubling rounds of "rotate along time by s, keep your own value if you have one, else take the
  neighbour's" (s = 1, 2, 4, ..., 64, the flag of a wrapped-around neighbour masked off) leave at time t the
  last observed value of the block's steps 0..t; the carry fills what the block itself cannot.
  Stated for one column (b, f) against an abstract time line X with validity predicate V, the block sitting
  at offset o: the block's own answer at step t is lastGe V o (o + t), and where that is none the carry C wins.
-/
import proofs.«111630_j72773925864084_1_alg».proof.Proof.Gen.KernelIdeal.Skeleton
import proofs.«111630_j72773925864084_1_alg».proof.Proof.Spec
import Idealize.ShloMosaic.Lib.KernelVsHost
import Idealize.ShloMosaic.Lib.StableHlo.Predicate

noncomputable section

namespace Cert.KernelIdeal.Body

open Cert.KernelIdeal Cert.KernelIdeal.Gen Idealize.ShloMosaic Idealize.ShloMosaic.ValueIdx Cert.FFill

/-! ## Words -/

theorem sgt_maxsi (a c : BitVec 32) :
    IntOp.cmpi .sgt (IntOp.maxsi a c) 0#32 = 1#1 ↔
      (IntOp.cmpi .sgt a 0#32 = 1#1 ∨ IntOp.cmpi .sgt c 0#32 = 1#1) := by
  unfold IntOp.cmpi IntOp.maxsi
  simp only [StableHlo.Predicate.ofBool_eq_one_iff, BitVec.slt, decide_eq_true_eq]
  have h0 : (0#32).toInt = 0 := by decide
  rw [h0]
  split_ifs with h
  · constructor
    · intro h'; exact Or.inl h'
    · rintro (h' | h')
      · exact h'
      · omega
  · constructor
    · intro h'; exact Or.inr h'
    · rintro (h' | h')
      · omega
      · exact h'

theorem sgt_zero : ¬ IntOp.cmpi .sgt (0#32) 0#32 = 1#1 := by decide
theorem sgt_one : IntOp.cmpi .sgt (1#32) 0#32 = 1#1 := by decide

/-! ## A rotation along time and the mask, read at an index -/

theorem rot_apply {α : Type} (sb : BitVec 32) (s : ℕ) (hsb : sb.toNat = s) (hs : s < 128)
    (x : S64x128x64.Idx → α) (b : Fin 64) (t : Fin 128) (f : Fin 64) (hst : s ≤ t.val) :
    dynamicRotate 1 sb none x rotates_S64x128x64_d1 (ix3 b t f) = x (ix3 b ⟨t.val - s, by omega⟩ f) := by
  refine dynamicRotate_apply (1 : Fin 3) sb x rotates_S64x128x64_d1 (ix3 b t f) (ix3 b ⟨t.val - s, by omega⟩ f) ?_
  intro a
  match a with
  | ⟨0, _⟩ => rfl
  | ⟨1, _⟩ =>
    show t.val - s = (t.val + 128 - sb.toNat % 128) % 128
    rw [hsb]; omega
  | ⟨2, _⟩ => rfl

theorem mask_apply (sb : BitVec 32) (s : ℕ) (hsb : sb.toNat = s) (hs : s < 128)
    (b : Fin 64) (t : Fin 128) (f : Fin 64) :
    cmpi .sge (iota .tc S64x128x64 32 [1] iota_S64x128x64_d1_w32) (broadcast S64x128x64 sb) (ix3 b t f) = 1#1 ↔
      s ≤ t.val := by
  show IntOp.cmpi .sge (iota .tc S64x128x64 32 [1] iota_S64x128x64_d1_w32 (ix3 b t f)) sb = 1#1 ↔ _
  rw [iota_single_apply]
  show IntOp.cmpi .sge (BitVec.ofNat 32 t.val) sb = 1#1 ↔ _
  have ht : (BitVec.ofNat 32 t.val).toNat = t.val := by
    rw [BitVec.toNat_ofNat]; have := t.isLt; omega
  rw [StableHlo.Predicate.sge_iff_toNat (by rw [ht]; have := t.isLt; omega) (by omega), ht, hsb]

/-! ## One doubling round -/

/-- The flag plane after a round with shift sb: a position is flagged when it was, or when the position sb earlier
    (inside the block) was. -/
def stepFlag (sb : BitVec 32) (flag : IVec S64x128x64 32) : IVec S64x128x64 32 :=
  maxsi flag (select (cmpi .sge (iota .tc S64x128x64 32 [1] iota_S64x128x64_d1_w32) (broadcast S64x128x64 sb))
    (dynamicRotate 1 sb none flag rotates_S64x128x64_d1) (broadcast S64x128x64 0#32))

/-- The value plane after a round with shift sb: a flagged position keeps its value, an unflagged one takes the value
    sb earlier (around the end). -/
def stepVal (sb : BitVec 32) (flag : IVec S64x128x64 32) (value : Vec Ideal S64x128x64 .f32) :
    Vec Ideal S64x128x64 .f32 :=
  select (cmpi .sgt flag (broadcast S64x128x64 0#32)) value (dynamicRotate 1 sb none value rotates_S64x128x64_d1)

section Column

variable (b : Fin 64) (f : Fin 64)
variable (V : ℕ → Prop) [DecidablePred V] (X : ℕ → Ideal .f32) (o : ℕ)

/-- The planes describe, in column (b, f), the windows of w steps ending at each step t (cut at the block's start):
    the flag says whether the window holds an observed step, and then the value is the entry at the last one. -/
def Inv (w : ℕ) (flag : IVec S64x128x64 32) (value : Vec Ideal S64x128x64 .f32) : Prop :=
  ∀ t : Fin 128,
    (IntOp.cmpi .sgt (flag (ix3 b t f)) 0#32 = 1#1 ↔
      (lastGe V (o + (t.val + 1 - w)) (o + t.val)).isSome = true) ∧
    (∀ i, lastGe V (o + (t.val + 1 - w)) (o + t.val) = some i → value (ix3 b t f) = X i)

theorem stepFlag_apply_ge (sb : BitVec 32) (w : ℕ) (hsb : sb.toNat = w) (hw : w < 128)
    (flag : IVec S64x128x64 32) (t : Fin 128) (h : w ≤ t.val) :
    stepFlag sb flag (ix3 b t f) = IntOp.maxsi (flag (ix3 b t f)) (flag (ix3 b ⟨t.val - w, by omega⟩ f)) := by
  show IntOp.maxsi (flag (ix3 b t f)) (Scalar.select
    (cmpi .sge (iota .tc S64x128x64 32 [1] iota_S64x128x64_d1_w32) (broadcast S64x128x64 sb) (ix3 b t f))
    (dynamicRotate 1 sb none flag rotates_S64x128x64_d1 (ix3 b t f)) 0#32) = _
  rw [(mask_apply sb w hsb hw b t f).2 h, select_one, rot_apply sb w hsb hw flag b t f h]

theorem stepFlag_apply_lt (sb : BitVec 32) (w : ℕ) (hsb : sb.toNat = w) (hw : w < 128)
    (flag : IVec S64x128x64 32) (t : Fin 128) (h : t.val < w) :
    stepFlag sb flag (ix3 b t f) = IntOp.maxsi (flag (ix3 b t f)) 0#32 := by
  show IntOp.maxsi (flag (ix3 b t f)) (Scalar.select
    (cmpi .sge (iota .tc S64x128x64 32 [1] iota_S64x128x64_d1_w32) (broadcast S64x128x64 sb) (ix3 b t f))
    (dynamicRotate 1 sb none flag rotates_S64x128x64_d1 (ix3 b t f)) 0#32) = _
  rw [eq_zero_of_ne_one (fun e => absurd ((mask_apply sb w hsb hw b t f).1 e) (by omega)), select_zero]

theorem stepVal_apply_pos (sb : BitVec 32) (flag : IVec S64x128x64 32) (value : Vec Ideal S64x128x64 .f32)
    (t : Fin 128) (h : IntOp.cmpi .sgt (flag (ix3 b t f)) 0#32 = 1#1) :
    stepVal sb flag value (ix3 b t f) = value (ix3 b t f) := by
  show Scalar.select (IntOp.cmpi .sgt (flag (ix3 b t f)) 0#32) (value (ix3 b t f)) _ = _
  rw [h, select_one]

theorem stepVal_apply_neg (sb : BitVec 32) (w : ℕ) (hsb : sb.toNat = w) (hw : w < 128)
    (flag : IVec S64x128x64 32) (value : Vec Ideal S64x128x64 .f32)
    (t : Fin 128) (hwt : w ≤ t.val) (h : ¬ IntOp.cmpi .sgt (flag (ix3 b t f)) 0#32 = 1#1) :
    stepVal sb flag value (ix3 b t f) = value (ix3 b ⟨t.val - w, by omega⟩ f) := by
  show Scalar.select (IntOp.cmpi .sgt (flag (ix3 b t f)) 0#32) (value (ix3 b t f))
    (dynamicRotate 1 sb none value rotates_S64x128x64_d1 (ix3 b t f)) = _
  rw [eq_zero_of_ne_one h, select_zero, rot_apply sb w hsb hw value b t f hwt]

/-- A round with shift w doubles the window. -/
theorem Inv_step (sb : BitVec 32) (w : ℕ) (hsb : sb.toNat = w) (hw0 : 0 < w) (hw : w < 128)
    (flag : IVec S64x128x64 32) (value : Vec Ideal S64x128x64 .f32) (h : Inv b f V X o w flag value) :
    Inv b f V X o (2 * w) (stepFlag sb flag) (stepVal sb flag value) := by
  intro t
  obtain ⟨hf, hv⟩ := h t
  by_cases hwt : w ≤ t.val
  · -- the window splits into the upper half, ending at t, and the lower half, ending at t - w
    obtain ⟨hf', hv'⟩ := h ⟨t.val - w, by omega⟩
    have e1 : o + (t.val - w + 1 - w) = o + (t.val + 1 - 2 * w) := by omega
    have e2 : o + (t.val + 1 - w) - 1 = o + (t.val - w) := by omega
    have hne : ¬ o + (t.val + 1 - w) = 0 := by omega
    have hsplit := lastGe_split (V := V) (lo' := o + (t.val + 1 - 2 * w)) (lo := o + (t.val + 1 - w)) (t := o + t.val)
      (by omega) (by omega)
    rw [if_neg hne, e2] at hsplit
    simp only [e1] at hf' hv'
    rw [stepFlag_apply_ge b f sb w hsb hw flag t hwt, sgt_maxsi, hf, hf']
    cases hu : lastGe V (o + (t.val + 1 - w)) (o + t.val) with
    | some j =>
      rw [hu] at hsplit hf hv
      have hpos : IntOp.cmpi .sgt (flag (ix3 b t f)) 0#32 = 1#1 := hf.2 rfl
      refine ⟨?_, ?_⟩
      · rw [hsplit]; simp
      · intro i hi
        rw [hsplit] at hi
        rw [stepVal_apply_pos b f sb flag value t hpos]
        exact hv i hi
    | none =>
      rw [hu] at hsplit hf hv
      have hneg : ¬ IntOp.cmpi .sgt (flag (ix3 b t f)) 0#32 = 1#1 := fun e => by simpa using hf.1 e
      refine ⟨?_, ?_⟩
      · rw [hsplit]; simp
      · intro i hi
        rw [hsplit] at hi
        rw [stepVal_apply_neg b f sb w hsb hw flag value t hwt hneg]
        exact hv' i hi
  · -- the window is already cut at the block's start
    have e1 : t.val + 1 - 2 * w = t.val + 1 - w := by omega
    rw [e1, stepFlag_apply_lt b f sb w hsb hw flag t (by omega), sgt_maxsi]
    refine ⟨?_, ?_⟩
    · rw [← hf]
      constructor
      · rintro (h' | h')
        · exact h'
        · exact absurd h' sgt_zero
      · exact Or.inl
    · intro i hi
      have hpos : IntOp.cmpi .sgt (flag (ix3 b t f)) 0#32 = 1#1 := hf.2 (by rw [hi]; rfl)
      rw [stepVal_apply_pos b f sb flag value t hpos]
      exact hv i hi

end Column

/-! ## The carry's broadcast and the last step's slice, read at an index -/

theorem bcastCarry_apply {α : Type} (v : S64x64.Idx → α) (b : Fin 64) (t : Fin 128) (f : Fin 64) :
    broadcastTo S64x128x64 (shapeCast S64x1x64 (shapeCast S64x1x64 v shapeCasts_S64x64_S64x1x64)
      shapeCasts_S64x1x64_S64x1x64) broadcasts_S64x1x64_S64x128x64 (ix3 b t f) = v (ix2 b f) := by
  refine (broadcastTo_apply _ broadcasts_S64x1x64_S64x128x64 (ix3 b t f) (ix3 b (0 : Fin 1) f) ?_).trans ?_
  · intro a
    match a with
    | ⟨0, _⟩ => rfl
    | ⟨1, _⟩ => rfl
    | ⟨2, _⟩ => rfl
  rw [shapeCast_self]
  refine shapeCast_apply v shapeCasts_S64x64_S64x1x64 (ix3 b (0 : Fin 1) f) (ix2 b f) ?_
  rw [Shape.rowMajor_val_two, Shape.rowMajor_val_three]
  show b.val * 64 + f.val = (b.val * 1 + 0) * 64 + f.val
  omega

theorem sliceLast_apply {α : Type} (x : S64x128x64.Idx → α) (b : Fin 64) (f : Fin 64) :
    shapeCast S64x64 (shapeCast S64x64 (extractStridedSlice S64x1x64 ![0, 127, 0] x
      slices_S64x128x64_o0_127_0_S64x1x64) shapeCasts_S64x1x64_S64x64) shapeCasts_S64x64_S64x64 (ix2 b f) =
      x (ix3 b (127 : Fin 128) f) := by
  rw [shapeCast_self]
  refine (shapeCast_apply _ shapeCasts_S64x1x64_S64x64 (ix2 b f) (ix3 b (0 : Fin 1) f) ?_).trans ?_
  · rw [Shape.rowMajor_val_two, Shape.rowMajor_val_three]
    show (b.val * 1 + 0) * 64 + f.val = b.val * 64 + f.val
    omega
  refine extractStridedSlice_apply ![0, 127, 0] x slices_S64x128x64_o0_127_0_S64x1x64 (ix3 b (0 : Fin 1) f)
    (ix3 b (127 : Fin 128) f) ?_
  intro a
  match a with
  | ⟨0, _⟩ => show b.val = 0 + b.val; omega
  | ⟨1, _⟩ => rfl
  | ⟨2, _⟩ => show f.val = 0 + f.val; omega

/-! ## The body's outputs -/

/-- The value plane after the first six rounds' selects and the seventh round's own select input (the printed %73). -/
def scanVal (x0 : Vec Ideal S64x128x64 .f32) : Vec Ideal S64x128x64 .f32 :=
  k0_pay14 (k0_pay6 x0) (k0_pay7 x0) (k0_pay8 x0) (k0_pay9 x0) k0_pay10
/-- The flag plane after six rounds (the printed %74). -/
def scanFlag (x0 : Vec Ideal S64x128x64 .f32) : IVec S64x128x64 32 :=
  k0_pay15 (k0_pay7 x0) (k0_pay9 x0) k0_pay10
/-- The value plane rotated by 64 (the printed %75). -/
def rotVal (x0 : Vec Ideal S64x128x64 .f32) : FVec Ideal S64x128x64 .f32 :=
  k0_pay16 (k0_pay6 x0) (k0_pay7 x0) (k0_pay8 x0) (k0_pay9 x0) k0_pay10
/-- The flag plane rotated by 64 (the printed %76). -/
def rotFlag (x0 : Vec Ideal S64x128x64 .f32) : IVec S64x128x64 32 :=
  k0_pay17 (k0_pay7 x0) (k0_pay9 x0) k0_pay10

/-- What the body stores in the first 64 output features: the fill. -/
def imputed (x0 : Vec Ideal S64x128x64 .f32) (cv : Vec Ideal S64x64 .f32) (cf : Vec Ideal S64x64 .i32) :
    Vec Ideal S64x128x64 .f32 :=
  k0_pay21 x0 (scanVal x0) (scanFlag x0) (rotVal x0) (rotFlag x0) cv cf
/-- What the body stores in the last 64 output features: the indicator. -/
def indic (x0 : Vec Ideal S64x128x64 .f32) : FVec Ideal S64x128x64 .f32 :=
  k0_pay22 (F := Ideal) (k0_pay3 x0)
/-- The carried value the body leaves. -/
def carryVal (x0 : Vec Ideal S64x128x64 .f32) (cv : Vec Ideal S64x64 .f32) : FVec Ideal S64x64 .f32 :=
  k0_pay23 (scanVal x0) (scanFlag x0) (rotVal x0) (rotFlag x0) cv
/-- The carried flag the body leaves. -/
def carryFlag (x0 : Vec Ideal S64x128x64 .f32) (cf : Vec Ideal S64x64 .i32) : IVec S64x64 32 :=
  k0_pay24 (scanFlag x0) (rotFlag x0) cf

/-- The block's answer at step t with the carry behind it. -/
def withCarry (V : ℕ → Prop) [DecidablePred V] (o : ℕ) (C : Option ℕ) (t : ℕ) : Option ℕ :=
  match lastGe V o (o + t) with
  | some i => some i
  | none => C

/-! ## The seven rounds of the body -/

section Chain

variable (x0 : Vec Ideal S64x128x64 .f32)

/-- The flag planes after rounds 1 to 5. -/
def flag1 : IVec S64x128x64 32 := stepFlag 1#32 (k0_pay4 x0)
def flag2 : IVec S64x128x64 32 := stepFlag 2#32 (flag1 x0)
def flag3 : IVec S64x128x64 32 := stepFlag 4#32 (flag2 x0)
def flag4 : IVec S64x128x64 32 := stepFlag 8#32 (flag3 x0)
def flag5 : IVec S64x128x64 32 := stepFlag 16#32 (flag4 x0)
/-- The value planes after rounds 1 to 5. -/
def val1 : Vec Ideal S64x128x64 .f32 := stepVal 1#32 (k0_pay4 x0) x0
def val2 : Vec Ideal S64x128x64 .f32 := stepVal 2#32 (flag1 x0) (val1 x0)
def val3 : Vec Ideal S64x128x64 .f32 := stepVal 4#32 (flag2 x0) (val2 x0)
def val4 : Vec Ideal S64x128x64 .f32 := stepVal 8#32 (flag3 x0) (val3 x0)
def val5 : Vec Ideal S64x128x64 .f32 := stepVal 16#32 (flag4 x0) (val4 x0)
/-- The planes after the seventh round. -/
def flag7 : IVec S64x128x64 32 := stepFlag 64#32 (scanFlag x0)
def val7 : Vec Ideal S64x128x64 .f32 := stepVal 64#32 (scanFlag x0) (scanVal x0)

theorem scanFlag_eq : scanFlag x0 = stepFlag 32#32 (flag5 x0) := rfl
theorem scanVal_eq : scanVal x0 = stepVal 32#32 (flag5 x0) (val5 x0) := rfl

/-- The flag plane with the carry behind it (the printed %97). -/
theorem finalFlag_eq (cf : Vec Ideal S64x64 .i32) :
    k0_pay20 (F := Ideal) (scanFlag x0) (rotFlag x0) cf = maxsi (flag7 x0)
      (broadcastTo S64x128x64 (shapeCast S64x1x64 (shapeCast S64x1x64 cf shapeCasts_S64x64_S64x1x64)
        shapeCasts_S64x1x64_S64x1x64) broadcasts_S64x1x64_S64x128x64) := rfl

/-- The value plane with the carry behind it (the printed %96). -/
theorem finalVal_eq (cv : Vec Ideal S64x64 .f32) :
    k0_pay19 (scanVal x0) (scanFlag x0) (rotVal x0) (rotFlag x0) cv =
      select (cmpi .sgt (flag7 x0) (broadcast S64x128x64 0#32)) (val7 x0)
        (broadcastTo S64x128x64 (shapeCast S64x1x64 (shapeCast S64x1x64 cv shapeCasts_S64x64_S64x1x64)
          shapeCasts_S64x1x64_S64x1x64) broadcasts_S64x1x64_S64x128x64) := rfl

end Chain

section Column

variable (x0 : Vec Ideal S64x128x64 .f32) (cv : Vec Ideal S64x64 .f32) (cf : Vec Ideal S64x64 .i32)
variable (b : Fin 64) (f : Fin 64)
variable (V : ℕ → Prop) [DecidablePred V] (X : ℕ → Ideal .f32) (o : ℕ) (C : Option ℕ)

/-- Before any round the window is the step itself. -/
theorem Inv_base
    (hX : ∀ t : Fin 128, x0 (ix3 b t f) = X (o + t.val))
    (hV : ∀ t : Fin 128, V (o + t.val) ↔ ¬ missBit (x0 (ix3 b t f)) = 1#1) :
    Inv b f V X o 1 (k0_pay4 x0) x0 := by
  intro t
  have e1 : o + (t.val + 1 - 1) = o + t.val := by omega
  have hfl : k0_pay4 x0 (ix3 b t f) = Scalar.select (missBit (x0 (ix3 b t f))) 0#32 1#32 := rfl
  rw [e1, lastGe_self, hfl]
  by_cases hm : missBit (x0 (ix3 b t f)) = 1#1
  · have hnv : ¬ V (o + t.val) := fun hv => (hV t).1 hv hm
    rw [hm, select_one, if_neg hnv]
    exact ⟨⟨fun e => absurd e sgt_zero, fun e => by cases e⟩, fun i hi => by cases hi⟩
  · have hv : V (o + t.val) := (hV t).2 hm
    rw [eq_zero_of_ne_one hm, select_zero, if_pos hv]
    refine ⟨⟨fun _ => rfl, fun _ => sgt_one⟩, fun i hi => ?_⟩
    cases hi
    exact hX t

/-- After the seven rounds the window is the whole block up to the step. -/
theorem Inv_full
    (hX : ∀ t : Fin 128, x0 (ix3 b t f) = X (o + t.val))
    (hV : ∀ t : Fin 128, V (o + t.val) ↔ ¬ missBit (x0 (ix3 b t f)) = 1#1) :
    Inv b f V X o 128 (flag7 x0) (val7 x0) := by
  have h0 := Inv_base x0 b f V X o hX hV
  have h1 : Inv b f V X o 2 (flag1 x0) (val1 x0) := Inv_step b f V X o 1#32 1 rfl (by omega) (by omega) _ _ h0
  have h2 : Inv b f V X o 4 (flag2 x0) (val2 x0) := Inv_step b f V X o 2#32 2 rfl (by omega) (by omega) _ _ h1
  have h3 : Inv b f V X o 8 (flag3 x0) (val3 x0) := Inv_step b f V X o 4#32 4 rfl (by omega) (by omega) _ _ h2
  have h4 : Inv b f V X o 16 (flag4 x0) (val4 x0) := Inv_step b f V X o 8#32 8 rfl (by omega) (by omega) _ _ h3
  have h5 : Inv b f V X o 32 (flag5 x0) (val5 x0) := Inv_step b f V X o 16#32 16 rfl (by omega) (by omega) _ _ h4
  have h6 : Inv b f V X o 64 (scanFlag x0) (scanVal x0) := by
    rw [scanFlag_eq, scanVal_eq]
    exact Inv_step b f V X o 32#32 32 rfl (by omega) (by omega) _ _ h5
  exact Inv_step b f V X o 64#32 64 rfl (by omega) (by omega) _ _ h6

/-- The whole-block facts in the form used below: the flag says whether the block holds an observed step up to t,
    and then the value is the entry there. -/
theorem flag7_iff
    (hV : ∀ t : Fin 128, V (o + t.val) ↔ ¬ missBit (x0 (ix3 b t f)) = 1#1) (t : Fin 128) :
    IntOp.cmpi .sgt (flag7 x0 (ix3 b t f)) 0#32 = 1#1 ↔ (lastGe V o (o + t.val)).isSome = true := by
  have hX : ∀ t : Fin 128, x0 (ix3 b t f) = (fun i => x0 (ix3 b ⟨(i - o) % 128, Nat.mod_lt _ (by omega)⟩ f)) (o + t.val) := by
    intro t
    have e : (⟨(o + t.val - o) % 128, Nat.mod_lt _ (by omega)⟩ : Fin 128) = t :=
      Fin.ext (by show (o + t.val - o) % 128 = t.val; have := t.isLt; omega)
    show x0 (ix3 b t f) = x0 (ix3 b ⟨(o + t.val - o) % 128, _⟩ f)
    rw [e]
  have h := (Inv_full x0 b f V (fun i => x0 (ix3 b ⟨(i - o) % 128, Nat.mod_lt _ (by omega)⟩ f)) o hX hV t).1
  have e : o + (t.val + 1 - 128) = o := by have := t.isLt; omega
  rw [e] at h
  exact h

theorem val7_eq
    (hX : ∀ t : Fin 128, x0 (ix3 b t f) = X (o + t.val))
    (hV : ∀ t : Fin 128, V (o + t.val) ↔ ¬ missBit (x0 (ix3 b t f)) = 1#1) (t : Fin 128) (i : ℕ)
    (hi : lastGe V o (o + t.val) = some i) : val7 x0 (ix3 b t f) = X i := by
  have h := (Inv_full x0 b f V X o hX hV t).2
  have e : o + (t.val + 1 - 128) = o := by have := t.isLt; omega
  rw [e] at h
  exact h i hi

theorem finalFlag_iff
    (hV : ∀ t : Fin 128, V (o + t.val) ↔ ¬ missBit (x0 (ix3 b t f)) = 1#1)
    (hcf : IntOp.cmpi .sgt (cf (ix2 b f)) 0#32 = 1#1 ↔ C.isSome = true) (t : Fin 128) :
    IntOp.cmpi .sgt (k0_pay20 (F := Ideal) (scanFlag x0) (rotFlag x0) cf (ix3 b t f)) 0#32 = 1#1 ↔
      (withCarry V o C t.val).isSome = true := by
  rw [finalFlag_eq]
  show IntOp.cmpi .sgt (IntOp.maxsi (flag7 x0 (ix3 b t f)) (broadcastTo S64x128x64 _ _ (ix3 b t f))) 0#32 = 1#1 ↔ _
  rw [bcastCarry_apply, sgt_maxsi, flag7_iff x0 b f V o hV t, hcf]
  unfold withCarry
  cases lastGe V o (o + t.val) with
  | some j => simp
  | none => simp

theorem finalVal_eq_of
    (hX : ∀ t : Fin 128, x0 (ix3 b t f) = X (o + t.val))
    (hV : ∀ t : Fin 128, V (o + t.val) ↔ ¬ missBit (x0 (ix3 b t f)) = 1#1)
    (hcv : ∀ i, C = some i → cv (ix2 b f) = X i) (t : Fin 128) (i : ℕ)
    (hi : withCarry V o C t.val = some i) :
    k0_pay19 (scanVal x0) (scanFlag x0) (rotVal x0) (rotFlag x0) cv (ix3 b t f) = X i := by
  rw [finalVal_eq]
  show Scalar.select (IntOp.cmpi .sgt (flag7 x0 (ix3 b t f)) 0#32) (val7 x0 (ix3 b t f))
    (broadcastTo S64x128x64 _ _ (ix3 b t f)) = _
  rw [bcastCarry_apply]
  unfold withCarry at hi
  cases hl : lastGe V o (o + t.val) with
  | some j =>
    rw [hl] at hi
    have hji : j = i := Option.some.inj hi
    rw [← hji, (flag7_iff x0 b f V o hV t).2 (by rw [hl]; rfl), select_one]
    exact val7_eq x0 b f V X o hX hV t j hl
  | none =>
    rw [hl] at hi
    have hneg : ¬ IntOp.cmpi .sgt (flag7 x0 (ix3 b t f)) 0#32 = 1#1 := fun e => by
      have := (flag7_iff x0 b f V o hV t).1 e
      rw [hl] at this; cases this
    rw [eq_zero_of_ne_one hneg, select_zero]
    exact hcv i hi

/-- The fill half: the value at the last observed step of the block up to t, else the carried value, else the entry. -/
theorem imputed_apply
    (hX : ∀ t : Fin 128, x0 (ix3 b t f) = X (o + t.val))
    (hV : ∀ t : Fin 128, V (o + t.val) ↔ ¬ missBit (x0 (ix3 b t f)) = 1#1)
    (hcf : IntOp.cmpi .sgt (cf (ix2 b f)) 0#32 = 1#1 ↔ C.isSome = true)
    (hcv : ∀ i, C = some i → cv (ix2 b f) = X i) (t : Fin 128) :
    imputed x0 cv cf (ix3 b t f) = match withCarry V o C t.val with
      | some i => X i
      | none => x0 (ix3 b t f) := by
  show Scalar.select (IntOp.cmpi .sgt (k0_pay20 (F := Ideal) (scanFlag x0) (rotFlag x0) cf (ix3 b t f)) 0#32)
    (k0_pay19 (scanVal x0) (scanFlag x0) (rotVal x0) (rotFlag x0) cv (ix3 b t f)) (x0 (ix3 b t f)) = _
  cases hw : withCarry V o C t.val with
  | some i =>
    rw [(finalFlag_iff x0 cf b f V o C hV hcf t).2 (by rw [hw]; rfl), select_one]
    exact finalVal_eq_of x0 cv b f V X o C hX hV hcv t i hw
  | none =>
    have hneg : ¬ IntOp.cmpi .sgt (k0_pay20 (F := Ideal) (scanFlag x0) (rotFlag x0) cf (ix3 b t f)) 0#32 = 1#1 :=
      fun e => by
        have := (finalFlag_iff x0 cf b f V o C hV hcf t).1 e
        rw [hw] at this; cases this
    rw [eq_zero_of_ne_one hneg, select_zero]

/-- The carried flag the body leaves says whether anything is observed up to the block's last step. -/
theorem carryFlag_apply
    (hV : ∀ t : Fin 128, V (o + t.val) ↔ ¬ missBit (x0 (ix3 b t f)) = 1#1)
    (hcf : IntOp.cmpi .sgt (cf (ix2 b f)) 0#32 = 1#1 ↔ C.isSome = true) :
    IntOp.cmpi .sgt (carryFlag x0 cf (ix2 b f)) 0#32 = 1#1 ↔ (withCarry V o C 127).isSome = true := by
  have e : carryFlag x0 cf (ix2 b f) = k0_pay20 (F := Ideal) (scanFlag x0) (rotFlag x0) cf (ix3 b (127 : Fin 128) f) :=
    sliceLast_apply _ b f
  rw [e]
  exact finalFlag_iff x0 cf b f V o C hV hcf (127 : Fin 128)

/-- The carried value the body leaves is the last observed value up to the block's last step, when there is one. -/
theorem carryVal_apply
    (hX : ∀ t : Fin 128, x0 (ix3 b t f) = X (o + t.val))
    (hV : ∀ t : Fin 128, V (o + t.val) ↔ ¬ missBit (x0 (ix3 b t f)) = 1#1)
    (hcf : IntOp.cmpi .sgt (cf (ix2 b f)) 0#32 = 1#1 ↔ C.isSome = true)
    (hcv : ∀ i, C = some i → cv (ix2 b f) = X i) (i : ℕ) (hi : withCarry V o C 127 = some i) :
    carryVal x0 cv (ix2 b f) = X i := by
  have e : carryVal x0 cv (ix2 b f) =
      k0_pay19 (scanVal x0) (scanFlag x0) (rotVal x0) (rotFlag x0) cv (ix3 b (127 : Fin 128) f) :=
    sliceLast_apply _ b f
  rw [e]
  exact finalVal_eq_of x0 cv b f V X o C hX hV hcv (127 : Fin 128) i hi

end Column

/-- The indicator half. -/
theorem indic_apply (x0 : Vec Ideal S64x128x64 .f32) (b : Fin 64) (t : Fin 128) (f : Fin 64) :
    indic x0 (ix3 b t f) = indicator (x0 (ix3 b t f)) := by
  have e : indic x0 = uitofp .f32 (k0_pay3 x0) := sitofp_extui_eq_uitofp (k0_pay3 x0) natLt_1_32
  rw [e]
  rfl

end Cert.KernelIdeal.Body

end
-- ==== Proof.KernelPieces.lean ====
/-
  What one grid point's body leaves in its buffers, as functions of the input block and the carried scratch.

  The output block [64, 128, 128] is written by two stores, each half of the feature axis: features 0..63 take
  the fill, features 64..127 the missingness indicator.  The two carried buffers take the fill and the flag at the
  block's last time step.  At the first time block of a batch block the carry is first reset to zero and read back.
-/
import proofs.«111630_j72773925864084_1_alg».proof.Proof.Gen.KernelIdeal.Frame
import proofs.«111630_j72773925864084_1_alg».proof.Proof.BodyValue
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- The output block: the fill in features 0..63, the indicator in features 64..127. -/
def outBlock (x0 : Vec Ideal S64x128x64 .f32) (cv : Vec Ideal S64x64 .f32) (cf : Vec Ideal S64x64 .i32) :
    Vec Ideal S64x128x128 .f32 := fun j =>
  if h : (j 2).val < 64 then Body.imputed x0 cv cf (ix3 (j 0) (j 1) ⟨(j 2).val, h⟩)
  else Body.indic x0 (ix3 (j 0) (j 1) ⟨(j 2).val - 64, by have : (j 2).val < 128 := (j 2).isLt; omega⟩)

/-- The output block at an index of its lower feature half. -/
theorem outBlock_lo (x0 : Vec Ideal S64x128x64 .f32) (cv : Vec Ideal S64x64 .f32) (cf : Vec Ideal S64x64 .i32)
    (j : S64x128x128.Idx) (k : S64x128x64.Idx) (e0 : (j 0).val = (k 0).val) (e1 : (j 1).val = (k 1).val)
    (e2 : (j 2).val = (k 2).val) : outBlock x0 cv cf j = Body.imputed x0 cv cf k := by
  have hk : (k 2).val < 64 := (k 2).isLt
  unfold outBlock
  rw [dif_pos (by omega)]
  congr 1
  funext a; apply Fin.ext
  match a with
  | ⟨0, _⟩ => exact e0
  | ⟨1, _⟩ => exact e1
  | ⟨2, _⟩ => exact e2

/-- The output block at an index of its upper feature half. -/
theorem outBlock_hi (x0 : Vec Ideal S64x128x64 .f32) (cv : Vec Ideal S64x64 .f32) (cf : Vec Ideal S64x64 .i32)
    (j : S64x128x128.Idx) (k : S64x128x64.Idx) (e0 : (j 0).val = (k 0).val) (e1 : (j 1).val = (k 1).val)
    (e2 : (j 2).val = 64 + (k 2).val) : outBlock x0 cv cf j = Body.indic x0 k := by
  unfold outBlock
  rw [dif_neg (by omega)]
  congr 1
  funext a; apply Fin.ext
  match a with
  | ⟨0, _⟩ => exact e0
  | ⟨1, _⟩ => exact e1
  | ⟨2, _⟩ => show (j 2).val - 64 = (k 2).val; omega

/-- The indicator store's piece agrees with the output block: it sits at feature offset 64. -/
theorem piece_hi (x0 : Vec Ideal S64x128x64 .f32) (cv : Vec Ideal S64x64 .f32) (cf : Vec Ideal S64x64 .i32)
    (inb : ∀ a, (![0, 0, 64] : Fin 3 → Nat) a + S64x128x64.size a ≤ S64x128x128.size a) (x : S64x128x64.Idx) :
    Body.indic x0 x = outBlock x0 cv cf ((Rect.unit (s := S64x128x128) ![0, 0, 64] S64x128x64.size inb).emb x) :=
  (outBlock_hi x0 cv cf ((Rect.unit (s := S64x128x128) ![0, 0, 64] S64x128x64.size inb).emb x) x
    (by show 0 + 1 * (x 0).val = (x 0).val; omega) (by show 0 + 1 * (x 1).val = (x 1).val; omega)
    (by show 64 + 1 * (x 2).val = 64 + (x 2).val; omega)).symm

/-- The fill store's piece agrees with the output block: it sits at feature offset 0. -/
theorem piece_lo (x0 : Vec Ideal S64x128x64 .f32) (cv : Vec Ideal S64x64 .f32) (cf : Vec Ideal S64x64 .i32)
    (inb : ∀ a, (![0, 0, 0] : Fin 3 → Nat) a + S64x128x64.size a ≤ S64x128x128.size a) (x : S64x128x64.Idx) :
    Body.imputed x0 cv cf x = outBlock x0 cv cf ((Rect.unit (s := S64x128x128) ![0, 0, 0] S64x128x64.size inb).emb x) :=
  (outBlock_lo x0 cv cf ((Rect.unit (s := S64x128x128) ![0, 0, 0] S64x128x64.size inb).emb x) x
    (by show 0 + 1 * (x 0).val = (x 0).val; omega) (by show 0 + 1 * (x 1).val = (x 1).val; omega)
    (by show 0 + 1 * (x 2).val = (x 2).val; omega)).symm

/-- Two stores, each a half of the feature axis, whose payloads agree with one function of the block index. -/
theorem pieces_agree (G : S64x128x128.Idx → Ideal .f32) (P64 P0 : S64x128x64.Idx → Ideal .f32)
    (inb64 : ∀ a, (![0, 0, 64] : Fin 3 → Nat) a + S64x128x64.size a ≤ S64x128x128.size a)
    (inb0 : ∀ a, (![0, 0, 0] : Fin 3 → Nat) a + S64x128x64.size a ≤ S64x128x128.size a)
    (h64 : ∀ x : S64x128x64.Idx, P64 x = G ((Rect.unit (s := S64x128x128) ![0, 0, 64] S64x128x64.size inb64).emb x))
    (h0 : ∀ x : S64x128x64.Idx, P0 x = G ((Rect.unit (s := S64x128x128) ![0, 0, 0] S64x128x64.size inb0).emb x)) :
    ∀ p ∈ [(⟨Rect.unit (s := S64x128x128) ![0, 0, 64] S64x128x64.size inb64, P64⟩ : View.Piece (Elt Ideal) S64x128x128 .f32),
        ⟨Rect.unit (s := S64x128x128) ![0, 0, 0] S64x128x64.size inb0, P0⟩],
      ∀ x : p.1.shape.Idx, p.2 x = G (p.1.emb x) := by
  intro p hp
  simp only [List.mem_cons, List.not_mem_nil, or_false] at hp
  rcases hp with rfl | rfl
  · exact h64
  · exact h0

/-! ## A point that carries over (not the first time block) -/

theorem out_B (c : Dev nD) (i : grid0.Coords) (a2 : Memref sig .tc .vmem S64x128x64 .f32) (h2 : a2.IsWhole)
    (a3 : Memref sig .tc .vmem S64x128x128 .f32) (h3 : a3.IsWhole) (a4 : Memref sig .tc .vmem S64x64 .f32) (h4 : a4.IsWhole)
    (a5 : Memref sig .tc .vmem S64x64 .i32) (h5 : a5.IsWhole) (hc : ¬cond0_0 i)
    (x0 : Vec Ideal S64x128x64 .f32) (xs0 : Vec Ideal S64x64 .f32) (xs1 : Vec Ideal S64x64 .i32) :
    out0_B_1 (F := Ideal) c i a2 h2 a3 h3 a4 h4 a5 h5 hc x0 xs0 xs1 = outBlock x0 xs0 xs1 := by
  unfold out0_B_1
  rw [View.read_writes_eq_canon _ _ _ (cover0_B_1 c i a2 h2 a3 h3 a4 h4 a5 h5 hc x0 xs0 xs1)]
  funext y
  refine View.canon_apply_of_pieces (outBlock x0 xs0 xs1) _ ?_ y (cover0_B_1 c i a2 h2 a3 h3 a4 h4 a5 h5 hc x0 xs0 xs1 y)
  unfold kernelRun0_B
  dsimp only
  sl_unfold_words
  simp only [View.readAt_eq_ld, h2.read_unread, h4.read_unread, h5.read_unread, View.ld_unit_zero (S := S64x128x64) hz3,
    View.ld_unit_zero (S := S64x64) hz2]
  exact pieces_agree (outBlock x0 xs0 xs1) (Body.indic x0) (Body.imputed x0 xs0 xs1) _ _
    (piece_hi x0 xs0 xs1 _) (piece_lo x0 xs0 xs1 _)

theorem sout_B_0 (c : Dev nD) (i : grid0.Coords) (a2 : Memref sig .tc .vmem S64x128x64 .f32) (h2 : a2.IsWhole)
    (a3 : Memref sig .tc .vmem S64x128x128 .f32) (h3 : a3.IsWhole) (a4 : Memref sig .tc .vmem S64x64 .f32) (h4 : a4.IsWhole)
    (a5 : Memref sig .tc .vmem S64x64 .i32) (h5 : a5.IsWhole) (hc : ¬cond0_0 i)
    (x0 : Vec Ideal S64x128x64 .f32) (xs0 : Vec Ideal S64x64 .f32) (xs1 : Vec Ideal S64x64 .i32) :
    sout0_B_0 (F := Ideal) c i a2 h2 a3 h3 a4 h4 a5 h5 hc x0 xs0 xs1 = Body.carryVal x0 xs0 := by
  unfold sout0_B_0
  rw [View.read_writes_eq_canon _ _ _ (scover0_B_0 c i a2 h2 a3 h3 a4 h4 a5 h5 hc x0 xs0 xs1)]
  unfold kernelRun0_B
  dsimp only
  sl_unfold_words
  rw [View.canon_unit_zero hz2]
  simp only [View.readAt_eq_ld, h2.read_unread, h4.read_unread, h5.read_unread, View.ld_unit_zero (S := S64x128x64) hz3,
    View.ld_unit_zero (S := S64x64) hz2]
  rfl

theorem sout_B_1 (c : Dev nD) (i : grid0.Coords) (a2 : Memref sig .tc .vmem S64x128x64 .f32) (h2 : a2.IsWhole)
    (a3 : Memref sig .tc .vmem S64x128x128 .f32) (h3 : a3.IsWhole) (a4 : Memref sig .tc .vmem S64x64 .f32) (h4 : a4.IsWhole)
    (a5 : Memref sig .tc .vmem S64x64 .i32) (h5 : a5.IsWhole) (hc : ¬cond0_0 i)
    (x0 : Vec Ideal S64x128x64 .f32) (xs0 : Vec Ideal S64x64 .f32) (xs1 : Vec Ideal S64x64 .i32) :
    sout0_B_1 (F := Ideal) c i a2 h2 a3 h3 a4 h4 a5 h5 hc x0 xs0 xs1 = Body.carryFlag x0 xs1 := by
  unfold sout0_B_1
  rw [View.read_writes_eq_canon _ _ _ (scover0_B_1 c i a2 h2 a3 h3 a4 h4 a5 h5 hc x0 xs0 xs1)]
  unfold kernelRun0_B
  dsimp only
  sl_unfold_words
  rw [View.canon_unit_zero hz2]
  simp only [View.readAt_eq_ld, h2.read_unread, h4.read_unread, h5.read_unread, View.ld_unit_zero (S := S64x128x64) hz3,
    View.ld_unit_zero (S := S64x64) hz2]
  rfl

/-! ## The first time block of a batch block: the carry reset, then read back -/

/-- The zero value the reset stores. -/
abbrev zeroVal : Vec Ideal S64x64 .f32 := k0_pay1 (F := Ideal)
/-- The zero flag the reset stores. -/
abbrev zeroFlag : Vec Ideal S64x64 .i32 := k0_pay2

theorem out_A (c : Dev nD) (i : grid0.Coords) (a2 : Memref sig .tc .vmem S64x128x64 .f32) (h2 : a2.IsWhole)
    (a3 : Memref sig .tc .vmem S64x128x128 .f32) (h3 : a3.IsWhole) (a4 : Memref sig .tc .vmem S64x64 .f32) (h4 : a4.IsWhole)
    (a5 : Memref sig .tc .vmem S64x64 .i32) (h5 : a5.IsWhole) (hc : cond0_0 i) (x0 : Vec Ideal S64x128x64 .f32) :
    out0_A_1 (F := Ideal) c i a2 h2 a3 h3 a4 h4 a5 h5 hc x0 = outBlock x0 zeroVal zeroFlag := by
  unfold out0_A_1
  rw [View.read_writes_eq_canon _ _ _ (cover0_A_1 c i a2 h2 a3 h3 a4 h4 a5 h5 hc x0)]
  funext y
  refine View.canon_apply_of_pieces (outBlock x0 zeroVal zeroFlag) _ ?_ y (cover0_A_1 c i a2 h2 a3 h3 a4 h4 a5 h5 hc x0 y)
  unfold kernelRun0_A
  dsimp only
  sl_unfold_words
  simp only [View.readAt_eq_ld, h2.read_unread, View.ld_unit_zero (S := S64x128x64) hz3,
    View.readCov_unit_zero (S := S64x64) _ hz2]
  exact pieces_agree (outBlock x0 zeroVal zeroFlag) (Body.indic x0) (Body.imputed x0 zeroVal zeroFlag) _ _
    (piece_hi x0 zeroVal zeroFlag _) (piece_lo x0 zeroVal zeroFlag _)

theorem sout_A_0 (c : Dev nD) (i : grid0.Coords) (a2 : Memref sig .tc .vmem S64x128x64 .f32) (h2 : a2.IsWhole)
    (a3 : Memref sig .tc .vmem S64x128x128 .f32) (h3 : a3.IsWhole) (a4 : Memref sig .tc .vmem S64x64 .f32) (h4 : a4.IsWhole)
    (a5 : Memref sig .tc .vmem S64x64 .i32) (h5 : a5.IsWhole) (hc : cond0_0 i) (x0 : Vec Ideal S64x128x64 .f32) :
    sout0_A_0 (F := Ideal) c i a2 h2 a3 h3 a4 h4 a5 h5 hc x0 = Body.carryVal x0 zeroVal := by
  unfold sout0_A_0
  rw [View.read_writes_eq_canon _ _ _ (scover0_A_0 c i a2 h2 a3 h3 a4 h4 a5 h5 hc x0)]
  unfold kernelRun0_A
  dsimp only
  sl_unfold_words
  rw [View.canon_cons_unit_zero (S := S64x64) hz2]
  simp only [View.readAt_eq_ld, h2.read_unread, View.ld_unit_zero (S := S64x128x64) hz3,
    View.readCov_unit_zero (S := S64x64) _ hz2]
  rfl

theorem sout_A_1 (c : Dev nD) (i : grid0.Coords) (a2 : Memref sig .tc .vmem S64x128x64 .f32) (h2 : a2.IsWhole)
    (a3 : Memref sig .tc .vmem S64x128x128 .f32) (h3 : a3.IsWhole) (a4 : Memref sig .tc .vmem S64x64 .f32) (h4 : a4.IsWhole)
    (a5 : Memref sig .tc .vmem S64x64 .i32) (h5 : a5.IsWhole) (hc : cond0_0 i) (x0 : Vec Ideal S64x128x64 .f32) :
    sout0_A_1 (F := Ideal) c i a2 h2 a3 h3 a4 h4 a5 h5 hc x0 = Body.carryFlag x0 zeroFlag := by
  unfold sout0_A_1
  rw [View.read_writes_eq_canon _ _ _ (scover0_A_1 c i a2 h2 a3 h3 a4 h4 a5 h5 hc x0)]
  unfold kernelRun0_A
  dsimp only
  sl_unfold_words
  rw [View.canon_cons_unit_zero (S := S64x64) hz2]
  simp only [View.readAt_eq_ld, h2.read_unread, View.ld_unit_zero (S := S64x128x64) hz3,
    View.readCov_unit_zero (S := S64x64) _ hz2]
  rfl

/-- The reset flag is zero everywhere. -/
theorem zeroFlag_apply (j : S64x64.Idx) : zeroFlag j = 0#32 := by
  unfold zeroFlag k0_pay2
  rw [shapeCast_self]
  rfl

end Cert.KernelIdeal.Pieces

end
-- ==== Proof.KernelValue.lean ====
/-
  The kernel's result array is the specification.

  The grid has 2 batch blocks times 16 time blocks, walked in row-major order, so grid point n works on batch rows
  64 (n / 16) .. + 63 and time steps 128 (n % 16) .. + 127.  Within one batch block the carried buffers hold, after
  the time block ending at step e - 1, the last observed step in [0, e - 1] of every column (value and flag).
  One point's body turns that into the fill of its own 128 steps and the carry for the next point: a window
  [0, o + t] splits at the block's start o into the block's own part and the part the carry summarises.
  Every output index lies in exactly one point's block, so the array the run leaves is the specification.
-/
import proofs.«111630_j72773925864084_1_alg».proof.Proof.Gen.KernelIdeal.Value
import proofs.«111630_j72773925864084_1_alg».proof.Proof.KernelPieces

noncomputable section

namespace Cert.KernelIdeal.FillValue

open Cert.KernelIdeal Cert.KernelIdeal.Gen Idealize.ShloMosaic Idealize.ShloMosaic.TcCoe Idealize.SL.Sem
open Idealize.ShloMosaic.ValueIdx Cert.FFill
open Idealize.ShloMosaic.Pipeline (Dat)

/-! ## One grid point against the specification -/

/-- The batch row of block-local row b in batch block bi. -/
def rowOf (bi : ℕ) (b : Fin 64) : Fin 128 := ⟨(64 * bi + b.val) % 128, Nat.mod_lt _ (by decide)⟩
/-- The time step of block-local step tt in time block ti. -/
def timeOf (ti : ℕ) (tt : Fin 128) : Fin 2048 := ⟨(128 * ti + tt.val) % 2048, Nat.mod_lt _ (by decide)⟩

theorem timeOf_eq (ti : ℕ) (hti : ti < 16) (tt : Fin 128) :
    timeOf ti tt = ⟨128 * ti + tt.val, by have := tt.isLt; omega⟩ :=
  Fin.ext (Nat.mod_eq_of_lt (by have := tt.isLt; omega))

/-- What the carried buffers say after e time steps of batch block bi: per column, whether a step in [0, e - 1] is
    observed, and the entry at the last such step. -/
def Carry (x : FVec Ideal SX .f32) (bi : ℕ) (e : ℕ) (cv : Vec Ideal S64x64 .f32) (cf : Vec Ideal S64x64 .i32) : Prop :=
  ∀ (b f : Fin 64),
    (IntOp.cmpi .sgt (cf (ix2 b f)) 0#32 = 1#1 ↔
      (if e = 0 then none else lastGe (valid x (rowOf bi b) f) 0 (e - 1)).isSome = true) ∧
    ∀ i, (if e = 0 then none else lastGe (valid x (rowOf bi b) f) 0 (e - 1)) = some i →
      cv (ix2 b f) = col x (rowOf bi b) f i

section Step

variable (x : FVec Ideal SX .f32) (x0 : Vec Ideal S64x128x64 .f32) (cv : Vec Ideal S64x64 .f32) (cf : Vec Ideal S64x64 .i32)
variable (bi ti : ℕ) (hti : ti < 16)
variable (hx0 : ∀ (b : Fin 64) (tt : Fin 128) (f : Fin 64), x0 (ix3 b tt f) = x (ix3 (rowOf bi b) (timeOf ti tt) f))
variable (hc : Carry x bi (128 * ti) cv cf)

include hti hx0 in
theorem block_col (b f : Fin 64) (tt : Fin 128) :
    x0 (ix3 b tt f) = col x (rowOf bi b) f (128 * ti + tt.val) := by
  rw [hx0 b tt f, timeOf_eq ti hti tt, col_of_lt x (rowOf bi b) f (128 * ti + tt.val) (by have := tt.isLt; omega)]

include hti hx0 in
theorem block_valid (b f : Fin 64) (tt : Fin 128) :
    valid x (rowOf bi b) f (128 * ti + tt.val) ↔ ¬ missBit (x0 (ix3 b tt f)) = 1#1 := by
  rw [block_col x x0 bi ti hti hx0 b f tt]
  exact ⟨fun h => h.2, fun h => ⟨by have := tt.isLt; omega, h⟩⟩

/-- The block's own answer with the carry behind it is the answer over the whole past. -/
theorem withCarry_eq (V : ℕ → Prop) [DecidablePred V] (o t : ℕ) :
    Body.withCarry V o (if o = 0 then none else lastGe V 0 (o - 1)) t = lastGe V 0 (o + t) :=
  (lastGe_split (V := V) (lo' := 0) (lo := o) (t := o + t) (Nat.zero_le _) (by omega)).symm

include hti hx0 hc in
/-- The output block of one point is the specification on the point's rows and steps. -/
theorem outBlock_spec (b : Fin 64) (tt : Fin 128) (c' : Fin 128) :
    Pieces.outBlock x0 cv cf (ix3 b tt c') = resultAt x (rowOf bi b) (timeOf ti tt) c' := by
  by_cases h : c'.val < 64
  · rw [Pieces.outBlock_lo x0 cv cf (ix3 b tt c') (ix3 b tt ⟨c'.val, h⟩) rfl rfl rfl]
    rw [Body.imputed_apply x0 cv cf b ⟨c'.val, h⟩ (valid x (rowOf bi b) ⟨c'.val, h⟩) (col x (rowOf bi b) ⟨c'.val, h⟩)
      (128 * ti) (if 128 * ti = 0 then none else lastGe (valid x (rowOf bi b) ⟨c'.val, h⟩) 0 (128 * ti - 1))
      (block_col x x0 bi ti hti hx0 b ⟨c'.val, h⟩) (block_valid x x0 bi ti hti hx0 b ⟨c'.val, h⟩)
      (hc b ⟨c'.val, h⟩).1 (hc b ⟨c'.val, h⟩).2 tt]
    rw [withCarry_eq]
    unfold resultAt
    rw [dif_pos h]
    unfold filled
    rw [timeOf_eq ti hti tt, hx0 b tt ⟨c'.val, h⟩, timeOf_eq ti hti tt]
    rfl
  · have hc' : c'.val < 128 := c'.isLt
    rw [Pieces.outBlock_hi x0 cv cf (ix3 b tt c') (ix3 b tt ⟨c'.val - 64, by omega⟩) rfl rfl (by show c'.val = 64 + (c'.val - 64); omega)]
    rw [Body.indic_apply]
    unfold resultAt
    rw [dif_neg h, hx0 b tt ⟨c'.val - 64, by omega⟩]

include hti hx0 hc in
/-- The carry one point leaves is the carry after 128 more steps. -/
theorem carry_step : Carry x bi (128 * ti + 128) (Body.carryVal x0 cv) (Body.carryFlag x0 cf) := by
  intro b f
  have hne : ¬ (128 * ti + 128 = 0) := by omega
  have he : lastGe (valid x (rowOf bi b) f) 0 (128 * ti + 128 - 1)
      = Body.withCarry (valid x (rowOf bi b) f) (128 * ti)
          (if 128 * ti = 0 then none else lastGe (valid x (rowOf bi b) f) 0 (128 * ti - 1)) 127 := by
    rw [withCarry_eq, show 128 * ti + 128 - 1 = 128 * ti + 127 by omega]
  rw [if_neg hne, he]
  exact ⟨Body.carryFlag_apply x0 cf b f (valid x (rowOf bi b) f) (128 * ti) _
      (block_valid x x0 bi ti hti hx0 b f) (hc b f).1,
    fun i hi => Body.carryVal_apply x0 cv cf b f (valid x (rowOf bi b) f) (col x (rowOf bi b) f) (128 * ti) _
      (block_col x x0 bi ti hti hx0 b f) (block_valid x x0 bi ti hti hx0 b f) (hc b f).1 (hc b f).2 i hi⟩

end Step

/-- Before any step nothing is observed, and the reset flag says so. -/
theorem carry_zero (x : FVec Ideal SX .f32) (bi : ℕ) : Carry x bi 0 Pieces.zeroVal Pieces.zeroFlag := by
  intro b f
  rw [if_pos rfl, Pieces.zeroFlag_apply]
  exact ⟨⟨fun h => absurd h (by decide), fun h => absurd h (by simp)⟩, fun i h => absurd h (by simp)⟩

/-! ## The run's contents, point by point -/

variable (m : (ℓ : Loc nD τ sig) → Buf (Elt Ideal) ℓ) (ρ : Dev nD → PrngReg)

/-- The input array on core c. -/
abbrev xarr (c : Dev nD) : FVec Ideal SX .f32 := m ((c : Thread nD τ).loc main_arg0)
/-- The input block of grid point t, at its literal type. -/
def xblk (c : Dev nD) (t : Fin cfg0.N) : Vec Ideal S64x128x64 .f32 := iblk m c 0 t

/-- The printed index maps over the grid: point t is batch block t / 16, time block t % 16. -/
theorem idx_in : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)
theorem idx_out : ∀ t : Fin cfg0.N, win0_1.index t (0 : Fin 3) = t.val / 16 ∧ win0_1.index t (1 : Fin 3) = t.val % 16
    ∧ win0_1.index t (2 : Fin 3) = 0 :=
  (by decide +kernel : ∀ t : Fin grid0.N, _)

/-- The input block read off the array. -/
theorem xblk_apply (c : Dev nD) (t : Fin cfg0.N) (b : Fin 64) (tt : Fin 128) (f : Fin 64) :
    xblk m c t (ix3 b tt f) = xarr m c (ix3 (rowOf (t.val / 16) b) (timeOf (t.val % 16) tt) f) := by
  have hN : t.val < 32 := lt_of_lt_of_eq t.isLt (show cfg0.N = 32 from N_0)
  obtain ⟨e0, e1, e2⟩ := idx_in t
  unfold xblk iblk
  rw [View.read_apply]
  show V m c main_arg0 _ = m ((c : Thread nD τ).loc main_arg0) _
  unfold V
  congr 1
  funext a; apply Fin.ext
  have hb := b.isLt; have htt := tt.isLt; have hf := f.isLt
  match a with
  | ⟨0, _⟩ => show win0_0.index t (0 : Fin 3) * 64 + 1 * b.val = (64 * (t.val / 16) + b.val) % 128; rw [e0]; omega
  | ⟨1, _⟩ => show win0_0.index t (1 : Fin 3) * 128 + 1 * tt.val = (128 * (t.val % 16) + tt.val) % 2048; rw [e1]; omega
  | ⟨2, _⟩ => show win0_0.index t (2 : Fin 3) * 64 + 1 * f.val = f.val; rw [e2]; omega

/-- What holds of the three buffers after point n. -/
def Inv (c : Dev nD) (n : ℕ) (p : Vec Ideal S64x128x128 .f32 × Vec Ideal S64x64 .f32 × Vec Ideal S64x64 .i32) : Prop :=
  (∀ (b : Fin 64) (tt : Fin 128) (c' : Fin 128),
      p.1 (ix3 b tt c') = resultAt (xarr m c) (rowOf (n / 16) b) (timeOf (n % 16) tt) c')
    ∧ Carry (xarr m c) (n / 16) (128 * (n % 16) + 128) p.2.1 p.2.2

set_option maxHeartbeats 1000000 in
/-- One point from a carry: the invariant after it. -/
theorem inv_of_carry (c : Dev nD) (t : Fin cfg0.N) (cv : Vec Ideal S64x64 .f32) (cf : Vec Ideal S64x64 .i32)
    (hc : Carry (xarr m c) (t.val / 16) (128 * (t.val % 16)) cv cf) :
    Inv m c t.val (Pieces.outBlock (xblk m c t) cv cf, Body.carryVal (xblk m c t) cv, Body.carryFlag (xblk m c t) cf) := by
  have hti : t.val % 16 < 16 := Nat.mod_lt _ (by decide)
  refine ⟨fun b tt c' => ?_, ?_⟩
  · exact outBlock_spec (xarr m c) (xblk m c t) cv cf (t.val / 16) (t.val % 16) hti (xblk_apply m c t) hc b tt c'
  · dsimp only
    show Carry (xarr m c) (t.val / 16) (128 * (t.val % 16) + 128) (Body.carryVal (xblk m c t) cv) (Body.carryFlag (xblk m c t) cf)
    have hs := carry_step (xarr m c) (xblk m c t) cv cf (t.val / 16) (t.val % 16) hti (xblk_apply m c t) hc
    exact hs

/-- After every point the buffers hold the specification's block and the column's carry. -/
theorem outsAt_inv (c : Dev nD) : ∀ (n : ℕ) (hn : n < cfg0.N), Inv m c n (outsAt0 m c n hn)
  | 0, hn => by
    have e := outsAt0_A m c ⟨0, hn⟩ rfl
    rw [show outsAt0 m c 0 hn = _ from e, Pieces.out_A, Pieces.sout_A_0, Pieces.sout_A_1]
    exact inv_of_carry m c ⟨0, hn⟩ _ _ (carry_zero _ _)
  | n + 1, hn => by
    have hN : n + 1 < 32 := lt_of_lt_of_eq hn (show cfg0.N = 32 from N_0)
    by_cases h0 : (n + 1) % 16 = 0
    · have e := outsAt0_A m c ⟨n + 1, hn⟩ h0
      rw [show outsAt0 m c (n + 1) hn = _ from e, Pieces.out_A, Pieces.sout_A_0, Pieces.sout_A_1]
      refine inv_of_carry m c ⟨n + 1, hn⟩ _ _ ?_
      show Carry (xarr m c) ((n + 1) / 16) (128 * ((n + 1) % 16)) _ _
      rw [h0]
      exact carry_zero _ _
    · have e := outsAt0_B m c ⟨n + 1, hn⟩ h0
      rw [show outsAt0 m c (n + 1) hn = _ from e, Pieces.out_B, Pieces.sout_B_0, Pieces.sout_B_1]
      refine inv_of_carry m c ⟨n + 1, hn⟩ _ _ ?_
      have ih := (outsAt_inv c n (Nat.lt_of_succ_lt hn)).2
      have e1 : n / 16 = (n + 1) / 16 := by omega
      have e2 : 128 * (n % 16) + 128 = 128 * ((n + 1) % 16) := by omega
      rw [e1, e2] at ih
      exact ih

/-! ## From blocks to the array -/

/-- What point t writes back is block t of the specification. -/
theorem flushed_eq (c : Dev nD) (t : Fin cfg0.N) :
    (dats m 0 c).flushed 1 t = ((cfg0.win 1).blk t).view.read (Elt Ideal) (result (xarr m c)) := by
  have hN : t.val < 32 := lt_of_lt_of_eq t.isLt (show cfg0.N = 32 from N_0)
  obtain ⟨e0, e1, e2⟩ := idx_out t
  rw [Value.flushed1]
  funext j
  show (outsAt0 m c t.val t.isLt).1 j = result (xarr m c) (((cfg0.win 1).blk t).view.emb j)
  have hj0 : (j 0).val < 64 := (j 0).isLt
  have hj1 : (j 1).val < 128 := (j 1).isLt
  have hj2 : (j 2).val < 128 := (j 2).isLt
  have hA := (outsAt_inv m c t.val t.isLt).1 ⟨(j 0).val, hj0⟩ ⟨(j 1).val, hj1⟩ ⟨(j 2).val, hj2⟩
  refine Eq.trans (congrArg (outsAt0 m c t.val t.isLt).1 (funext fun a => ?_)) (hA.trans ?_)
  · match a with
    | ⟨0, _⟩ => rfl
    | ⟨1, _⟩ => rfl
    | ⟨2, _⟩ => rfl
  · show resultAt (xarr m c) _ _ _ = resultAt (xarr m c) ((((cfg0.win 1).blk t).view.emb j) 0)
      ((((cfg0.win 1).blk t).view.emb j) 1) ((((cfg0.win 1).blk t).view.emb j) 2)
    congr 1
    · apply Fin.ext
      show (64 * (t.val / 16) + (j 0).val) % 128 = win0_1.index t (0 : Fin 3) * 64 + 1 * (j 0).val
      rw [e0]; omega
    · apply Fin.ext
      show (128 * (t.val % 16) + (j 1).val) % 2048 = win0_1.index t (1 : Fin 3) * 128 + 1 * (j 1).val
      rw [e1]; omega
    · apply Fin.ext
      show (j 2).val = win0_1.index t (2 : Fin 3) * 128 + 1 * (j 2).val
      rw [e2]; omega

/-- An index of the array is in point t's block iff each coordinate is in the block's range on its axis. -/
theorem mem_blk (t : Fin cfg0.N) (i : S128x2048x128.Idx) :
    i ∈ ((cfg0.win 1).blk t).view.set ↔ ∀ a : Fin 3, win0_1.index t a * S64x128x128.size a ≤ (i a).val
      ∧ (i a).val < win0_1.index t a * S64x128x128.size a + S64x128x128.size a := by
  show i ∈ ((View.whole main_v0).slice (win0_1.rect t)).set ↔ _
  rw [View.set_slice_whole, Rect.mem_set_unit]
  exact Iff.rfl

/-- Every index of the array is in some point's block. -/
theorem cover (i : S128x2048x128.Idx) :
    ∃ t : Fin cfg0.N, (cfg0.win 1).flush t = true ∧ i ∈ ((cfg0.win 1).blk t).view.set := by
  have hi0 : (i 0).val < 128 := (i 0).isLt
  have hi1 : (i 1).val < 2048 := (i 1).isLt
  have hi2 : (i 2).val < 128 := (i 2).isLt
  have hN : cfg0.N = 32 := N_0
  refine ⟨⟨16 * ((i 0).val / 64) + (i 1).val / 128, by rw [hN]; omega⟩, flush0_1 _, ?_⟩
  obtain ⟨e0, e1, e2⟩ := idx_out ⟨16 * ((i 0).val / 64) + (i 1).val / 128, by rw [hN]; omega⟩
  rw [mem_blk]
  intro a
  match a with
  | ⟨0, _⟩ =>
    show win0_1.index _ (0 : Fin 3) * 64 ≤ (i 0).val ∧ (i 0).val < win0_1.index _ (0 : Fin 3) * 64 + 64
    rw [e0]; dsimp only; omega
  | ⟨1, _⟩ =>
    show win0_1.index _ (1 : Fin 3) * 128 ≤ (i 1).val ∧ (i 1).val < win0_1.index _ (1 : Fin 3) * 128 + 128
    rw [e1]; dsimp only; omega
  | ⟨2, _⟩ =>
    show win0_1.index _ (2 : Fin 3) * 128 ≤ (i 2).val ∧ (i 2).val < win0_1.index _ (2 : Fin 3) * 128 + 128
    rw [e2]; omega

/-- The array the run leaves is the specification of the input array. -/
theorem final (c : Dev nD) : (dats m 0 c).arrAt 1 cfg0.N = result (xarr m c) :=
  (dats m 0 c).arrAt_eq_of_cover 1 (result (xarr m c)) (fun t _ => flushed_eq m c t) cover

/-- The kernel's run, read: the result array at the specification, the argument unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.FillValue

end
-- ==== Proof.RefCummax.lean ====
/-
  The reference's running maximum of observed time indices, read at one position.

  The reference marks each entry with its own time index when observed and with -1 when missing, and takes the
  running maximum along time (a window of 2048 positions ending at t, padded in front with the least 32-bit
  integer).  At (b, t, f) that maximum is the greatest observed time step at or before t, and -1 when there is none.

  The window at (b, t, f) has 2048 slots; slot n looks at time step t + n - 2047, which exists exactly when
  2047 ≤ t + n, and is padding otherwise.  So the slots that exist are the steps 0 .. t, each once.  A left fold of
  the signed maximum from the least integer returns a word w as soon as w bounds the start and every slot (as signed
  integers) and w is the start or one of the slots.  With w the word of the last observed step this is what the
  characterisation of lastGe says: an observed step contributes itself, a missing one -1, padding the least integer.
-/
import proofs.«111630_j72773925864084_1_alg».proof.Proof.RefRead
import proofs.«111630_j72773925864084_1_alg».proof.Proof.Spec

noncomputable section

namespace Cert.FFill.Ref

open Cert.ReferenceIdeal Idealize.ShloMosaic Idealize.ShloMosaic.ValueIdx Cert.FFill

/-- The last observed step as the reference's 32-bit word: the index itself, or -1 when there is none. -/
def lastWord : Option ℕ → BitVec 32
  | some i => BitVec.ofNat 32 i
  | none => 4294967295#32

/-! ### A fold of signed maxima -/

/-- The signed comparison of words is the comparison of their signed values. -/
theorem slt_iff (a b : BitVec 32) : a.slt b = true ↔ a.toInt < b.toInt := by
  simp [BitVec.slt]

/-- A left fold of the signed maximum over entries e n (given as g n) from v is w, when w bounds v and every
    entry as signed integers and w is v or one of the entries. -/
theorem foldl_maxsi_eq {α : Type} (g e : α → BitVec 32) (w : BitVec 32) (hg : ∀ n, g n = e n) :
    ∀ (l : List α) (v : BitVec 32), v.toInt ≤ w.toInt → (∀ n ∈ l, (e n).toInt ≤ w.toInt) →
      (w = v ∨ ∃ n ∈ l, e n = w) → l.foldl (fun r n => IntOp.maxsi r (g n)) v = w := by
  intro l
  induction l with
  | nil =>
    intro v _ _ h
    rcases h with h | ⟨n, hn, _⟩
    · exact h.symm
    · cases hn
  | cons a l ih =>
    intro v hv hl hw
    rw [List.foldl_cons, hg a]
    have ha : (e a).toInt ≤ w.toInt := hl a List.mem_cons_self
    by_cases hs : (e a).slt v = true
    · -- the head is below the accumulator: the accumulator stays, and w is not the head
      have hm : IntOp.maxsi v (e a) = v := if_pos hs
      rw [hm]
      have hlt : (e a).toInt < v.toInt := (slt_iff _ _).1 hs
      refine ih v hv (fun n hn => hl n (List.mem_cons_of_mem _ hn)) ?_
      rcases hw with h | ⟨n, hn, hgn⟩
      · exact Or.inl h
      · rcases List.mem_cons.1 hn with rfl | hn'
        · exfalso; rw [hgn] at hlt; omega
        · exact Or.inr ⟨n, hn', hgn⟩
    · -- the head is at least the accumulator: it becomes the accumulator; if w was the old one they are equal
      have hm : IntOp.maxsi v (e a) = e a := if_neg hs
      rw [hm]
      have hge : v.toInt ≤ (e a).toInt := by
        have : ¬ (e a).toInt < v.toInt := fun h => hs ((slt_iff _ _).2 h)
        omega
      refine ih (e a) ha (fun n hn => hl n (List.mem_cons_of_mem _ hn)) ?_
      rcases hw with h | ⟨n, hn, hgn⟩
      · left
        apply BitVec.eq_of_toInt_eq
        rw [h] at ha ⊢
        omega
      · rcases List.mem_cons.1 hn with rfl | hn'
        · exact Or.inl hgn.symm
        · exact Or.inr ⟨n, hn', hgn⟩

/-! ### The signed values of the three kinds of entry -/

/-- A time index is a small non-negative word: its signed value is itself. -/
theorem toInt_ofNat_small (k : ℕ) (h : k < 2048) : (BitVec.ofNat 32 k).toInt = (k : ℤ) := by
  rw [BitVec.toInt_eq_toNat_cond, BitVec.toNat_ofNat]
  have : k % 2 ^ 32 = k := Nat.mod_eq_of_lt (by omega)
  rw [this]
  split_ifs with h1
  · rfl
  · omega

/-- The mark of a missing entry is -1. -/
theorem toInt_neg_one : (4294967295#32 : BitVec 32).toInt = -1 := by decide

/-- The padding is the least 32-bit integer. -/
theorem toInt_least : (2147483648#32 : BitVec 32).toInt = -2147483648 := by decide

/-! ### The window -/

/-- The window has 2048 slots. -/
theorem numel_window : (⟨3, ![1, 2048, 1]⟩ : Shape).numel = 2048 := by decide

/-- Slot n of the window has coordinates (0, n, 0): the window extends along time only. -/
theorem window_coords (n : Fin (⟨3, ![1, 2048, 1]⟩ : Shape).numel) :
    (((⟨3, ![1, 2048, 1]⟩ : Shape).rowMajor.symm n) 0).val = 0 ∧
    (((⟨3, ![1, 2048, 1]⟩ : Shape).rowMajor.symm n) 1).val = n.val ∧
    (((⟨3, ![1, 2048, 1]⟩ : Shape).rowMajor.symm n) 2).val = 0 := by
  have h1 : ((⟨3, ![1, 2048, 1]⟩ : Shape).rowMajor ((⟨3, ![1, 2048, 1]⟩ : Shape).rowMajor.symm n)) = n :=
    Equiv.apply_symm_apply _ n
  generalize (⟨3, ![1, 2048, 1]⟩ : Shape).rowMajor.symm n = i at h1
  have h2 : n.val = ((i 0).val * 2048 + (i 1).val) * 1 + (i 2).val := by
    rw [← h1]; exact Shape.rowMajor_val_three i
  have a0 : (i 0).val < 1 := (i 0).isLt
  have a2 : (i 2).val < 1 := (i 2).isLt
  omega

/-- The marked time index at (b, t', f): t' itself when observed, -1 when missing. -/
theorem v4_read (x : FVec Ideal S128x2048x64 .f32) (b : Fin 128) (t' : Fin 2048) (f : Fin 64) :
    ReadP.val_main_v4 (F := Ideal) x (ix3 b t' f)
      = if valid x b f t'.val then BitVec.ofNat 32 t'.val else 4294967295#32 := by
  have hm : ReadP.val_main_v1 (F := Ideal) x (ix3 b t' f) = missBit (x (ix3 b t' f)) := by
    rw [ReadP.val_main_v1_apply, ReadP.val_main_v0_apply, ReadP.val_main_cst_apply]; rfl
  have h0 : ReadP.val_main_call0_v0 (F := Ideal) (ix3 b t' f) = 4294967295#32 := by
    rw [ReadP.val_main_call0_v0_apply, ReadP.val_main_c_apply]
  have h1 : ReadP.val_main_call0_v1 (F := Ideal) (ix3 b t' f) = BitVec.ofNat 32 t'.val := by
    rw [ReadP.val_main_call0_v1_apply, ReadP.val_main_v3_apply, ReadP.val_main_v2_apply]
  have hv : valid x b f t'.val ↔ ¬ missBit (x (ix3 b t' f)) = 1#1 := by
    unfold valid
    rw [col_of_lt x b f t'.val t'.isLt]
    exact ⟨fun h => h.2, fun h => ⟨t'.isLt, h⟩⟩
  rw [ReadP.val_main_v4_apply, hm, h0, h1]
  by_cases hb : missBit (x (ix3 b t' f)) = 1#1
  · rw [if_neg (fun h => (hv.1 h) hb), hb, select_one]
  · rw [if_pos (hv.2 hb), eq_zero_of_ne_one hb, select_zero]

/-- Slot n of the window ending at t: padding while t + n < 2047, then the marked index of step t + n - 2047. -/
def entry (x : FVec Ideal S128x2048x64 .f32) (b : Fin 128) (f : Fin 64) (t n : ℕ) : BitVec 32 :=
  if 2047 ≤ t + n then
    (if valid x b f (t + n - 2047) then BitVec.ofNat 32 (t + n - 2047) else 4294967295#32)
  else 2147483648#32

/-- The running maximum at (b, t, f) is the word of the last observed step at or before t. -/
theorem cummax_apply (x : FVec Ideal S128x2048x64 .f32) (b : Fin 128) (t : Fin 2048) (f : Fin 64) :
    Cert.ReferenceIdeal.ReadP.val_main_v5 (F := Ideal) x (ix3 b t f)
      = lastWord (lastGe (valid x b f) 0 t.val) := by
  have hinit : ReadP.val_main_call1_v0 (F := Ideal) (Shape.Idx.first Gen.h_S_) = 2147483648#32 := by
    rw [ReadP.val_main_call1_v0_apply, ReadP.val_main_call1_c_apply]
  have ht : t.val < 2048 := t.isLt
  unfold ReadP.val_main_v5 Host.reduceWindow
  refine foldl_maxsi_eq _ (fun n => entry x b f t.val n.val) _ ?_ _ _ ?_ ?_ ?_
  · -- slot n of the window reads position (b, t + n - 2047, f) when 2047 ≤ t + n, and is padding otherwise
    intro n
    obtain ⟨c0, c1, c2⟩ := window_coords n
    have hn : n.val < 2048 := lt_of_lt_of_eq n.isLt numel_window
    unfold entry
    by_cases h : 2047 ≤ t.val + n.val
    · rw [if_pos h]
      split
      · rename_i hin
        have hlt : t.val + n.val - 2047 < 2048 := by omega
        have hv4 : ReadP.val_main_v4 (F := Ideal) x (ix3 b (⟨t.val + n.val - 2047, hlt⟩ : Fin 2048) f)
            = if valid x b f (t.val + n.val - 2047) then BitVec.ofNat 32 (t.val + n.val - 2047)
              else 4294967295#32 := v4_read x b ⟨t.val + n.val - 2047, hlt⟩ f
        refine Eq.trans (congrArg (ReadP.val_main_v4 (F := Ideal) x) ?_) hv4
        funext a
        match a with
        | ⟨0, _⟩ =>
          apply Fin.ext
          show b.val * 1 + ((⟨3, ![1, 2048, 1]⟩ : Shape).rowMajor.symm n 0).val - 0 = b.val
          omega
        | ⟨1, _⟩ =>
          apply Fin.ext
          show t.val * 1 + ((⟨3, ![1, 2048, 1]⟩ : Shape).rowMajor.symm n 1).val - 2047 = t.val + n.val - 2047
          omega
        | ⟨2, _⟩ =>
          apply Fin.ext
          show f.val * 1 + ((⟨3, ![1, 2048, 1]⟩ : Shape).rowMajor.symm n 2).val - 0 = f.val
          omega
      · rename_i hin
        exfalso
        apply hin
        intro a
        match a with
        | ⟨0, _⟩ =>
          show 0 ≤ b.val * 1 + ((⟨3, ![1, 2048, 1]⟩ : Shape).rowMajor.symm n 0).val ∧
            b.val * 1 + ((⟨3, ![1, 2048, 1]⟩ : Shape).rowMajor.symm n 0).val - 0 < 128
          have := b.isLt
          omega
        | ⟨1, _⟩ =>
          show 2047 ≤ t.val * 1 + ((⟨3, ![1, 2048, 1]⟩ : Shape).rowMajor.symm n 1).val ∧
            t.val * 1 + ((⟨3, ![1, 2048, 1]⟩ : Shape).rowMajor.symm n 1).val - 2047 < 2048
          omega
        | ⟨2, _⟩ =>
          show 0 ≤ f.val * 1 + ((⟨3, ![1, 2048, 1]⟩ : Shape).rowMajor.symm n 2).val ∧
            f.val * 1 + ((⟨3, ![1, 2048, 1]⟩ : Shape).rowMajor.symm n 2).val - 0 < 64
          have := f.isLt
          omega
    · rw [if_neg h]
      split
      · rename_i hin
        exfalso
        have h1 := (hin 1).1
        have h1' : 2047 ≤ t.val * 1 + ((⟨3, ![1, 2048, 1]⟩ : Shape).rowMajor.symm n 1).val := h1
        omega
      · exact hinit
  · -- the least integer is below every answer
    rw [hinit, toInt_least]
    cases hl : lastGe (valid x b f) 0 t.val with
    | none => show (-2147483648 : ℤ) ≤ (4294967295#32 : BitVec 32).toInt; rw [toInt_neg_one]; omega
    | some i =>
      obtain ⟨_, hit, _⟩ := lastGe_bounds hl
      show (-2147483648 : ℤ) ≤ (BitVec.ofNat 32 i).toInt
      rw [toInt_ofNat_small i (by omega)]; omega
  · -- every slot is at most the answer: an observed step in the window is at most the last observed one
    intro n _
    have hn : n.val < 2048 := lt_of_lt_of_eq n.isLt numel_window
    show (entry x b f t.val n.val).toInt ≤ _
    unfold entry
    cases hl : lastGe (valid x b f) 0 t.val with
    | none =>
      have hnone := (lastGe_eq_none_iff 0 t.val).1 hl
      show _ ≤ (4294967295#32 : BitVec 32).toInt
      rw [toInt_neg_one]
      split_ifs with h1 h2
      · exact absurd h2 (hnone _ (Nat.zero_le _) (by omega))
      · rw [toInt_neg_one]
      · rw [toInt_least]; omega
    | some i =>
      obtain ⟨_, hit, hvi, hmax⟩ := (lastGe_eq_some_iff 0 t.val i).1 hl
      show _ ≤ (BitVec.ofNat 32 i).toInt
      rw [toInt_ofNat_small i (by omega)]
      split_ifs with h1 h2
      · rw [toInt_ofNat_small _ (by omega)]
        have : t.val + n.val - 2047 ≤ i := by
          by_contra hc
          exact hmax _ (by omega) (by omega) h2
        omega
      · rw [toInt_neg_one]; omega
      · rw [toInt_least]; omega
  · -- the answer is a slot: that of the last observed step, or that of step t (marked -1) when there is none
    right
    cases hl : lastGe (valid x b f) 0 t.val with
    | none =>
      have hnone := (lastGe_eq_none_iff 0 t.val).1 hl
      refine ⟨⟨2047, by rw [numel_window]; omega⟩, List.mem_finRange _, ?_⟩
      show entry x b f t.val 2047 = 4294967295#32
      unfold entry
      rw [if_pos (by omega), if_neg (hnone _ (Nat.zero_le _) (by omega))]
    | some i =>
      obtain ⟨_, hit, hvi, hmax⟩ := (lastGe_eq_some_iff 0 t.val i).1 hl
      refine ⟨⟨2047 - t.val + i, by rw [numel_window]; omega⟩, List.mem_finRange _, ?_⟩
      show entry x b f t.val (2047 - t.val + i) = BitVec.ofNat 32 i
      unfold entry
      have e : t.val + (2047 - t.val + i) - 2047 = i := by omega
      rw [if_pos (by omega), e, if_pos hvi]

end Cert.FFill.Ref

end
-- ==== Proof.RefValue.lean ====
/-
  The reference computes the specification.

  With the running maximum read as the last observed step (or -1), the gather along time takes the entry at that
  step (the index clamped at 0 is always inside the array, so the gather's out-of-range fill value is never chosen),
  the select keeps the entry itself where no step is observed, and the concatenation along features puts the
  missingness indicator after the fill.
-/
import proofs.«111630_j72773925864084_1_alg».proof.Proof.RefCummax
import Idealize.ShloMosaic.Lib.StableHlo.Predicate
import Idealize.ShloMosaic.PureOps.Reduce

noncomputable section

namespace Cert.FFill.Ref

open Cert.ReferenceIdeal Idealize.ShloMosaic Idealize.ShloMosaic.ValueIdx Cert.FFill
open Cert.ReferenceIdeal.ReadP Idealize.ShloMosaic.StableHlo.Predicate

/-! ## Words: the last observed step as a signed 32-bit integer -/

/-- The step the gather starts from: the last observed step, or 0 when there is none. -/
def startStep (L : Option ℕ) : ℕ := L.getD 0

theorem startStep_lt {L : Option ℕ} (hL : ∀ i, L = some i → i < 2048) : startStep L < 2048 := by
  cases L with
  | none => exact Nat.zero_lt_succ _
  | some i => exact hL i rfl

/-- A time step, as a word, is not negative. -/
theorem sge_step (n : ℕ) (hn : n < 2048) : IntOp.cmpi .sge (BitVec.ofNat 32 n) 0#32 = 1#1 := by
  refine (sge_iff_toNat ?_ ?_).2 ?_
  · rw [BitVec.toNat_ofNat]; omega
  · decide
  · exact Nat.zero_le _

/-- The word -1 is negative. -/
theorem sge_neg_one : IntOp.cmpi .sge 4294967295#32 0#32 = 0#1 := by decide

/-- The maximum of the last observed step (or -1) with 0 is the start step. -/
theorem maxsi_lastWord {L : Option ℕ} (hL : ∀ i, L = some i → i < 2048) :
    IntOp.maxsi (lastWord L) 0#32 = BitVec.ofNat 32 (startStep L) := by
  cases L with
  | none => decide
  | some i =>
    have hi : i < 2048 := hL i rfl
    show IntOp.maxsi (BitVec.ofNat 32 i) 0#32 = BitVec.ofNat 32 i
    unfold IntOp.maxsi
    split
    · rfl
    · rename_i hc
      have h1 : ¬ BitVec.ofBool ((0#32 : BitVec 32).slt (BitVec.ofNat 32 i)) = 1#1 := by
        rw [ofBool_eq_one_iff]; exact hc
      rw [slt_bool_iff_toNat (by decide) (by rw [BitVec.toNat_ofNat]; omega)] at h1
      simp only [BitVec.toNat_ofNat] at h1
      have : i = 0 := by omega
      subst this; rfl

/-- A start step is not below 0 … -/
theorem slt_step (n : ℕ) (hn : n < 2048) : IntOp.cmpi .slt (BitVec.ofNat 32 n) 0#32 = 0#1 := by
  refine eq_zero_of_ne_one fun h => ?_
  have := (slt_iff_toNat (by rw [BitVec.toNat_ofNat]; omega) (by decide)).1 h
  exact Nat.not_lt_zero _ this

/-- … and is at most 2047. -/
theorem sle_step (n : ℕ) (hn : n < 2048) : IntOp.cmpi .sle (BitVec.ofNat 32 n) 2047#32 = 1#1 := by
  refine (sle_iff_toNat (by rw [BitVec.toNat_ofNat]; omega) (by decide)).2 ?_
  rw [BitVec.toNat_ofNat]
  have : (2047#32 : BitVec 32).toNat = 2047 := rfl
  rw [this]; omega

/-- A start step read as a signed integer and clamped into the time axis is itself. -/
theorem clamp_step (n : ℕ) (hn : n < 2048) : min (BitVec.ofNat 32 n).toInt.toNat 2047 = n := by
  rw [toInt_ofNat_small n (by omega), Int.toNat_natCast]; omega

/-! ## The stages of the reference read at (b, t, f) -/

section Stages

variable (x : FVec Ideal S128x2048x64 .f32) (b : Fin 128) (t : Fin 2048) (f : Fin 64)

/-- The last observed step at or before t in column (b, f). -/
abbrev lastObs : Option ℕ := lastGe (valid x b f) 0 t.val

theorem lastObs_lt : ∀ i, lastObs x b t f = some i → i < 2048 := fun i h => by
  have := (lastGe_bounds h).2.1
  have := t.isLt
  omega

/-- The running maximum clamped below at 0 is the start step. -/
theorem v7_apply : val_main_v7 (F := Ideal) x (ix3 b t f) = BitVec.ofNat 32 (startStep (lastObs x b t f)) := by
  rw [val_main_v7_apply, cummax_apply, val_main_v6_apply, val_main_c_0_apply]
  exact maxsi_lastWord (lastObs_lt x b t f)

/-- The index normalisation (add 2048 to a negative index) leaves the start step alone. -/
theorem call2_v4_apply :
    val_main_call2_v4 (F := Ideal) x (ix3 b t f) = BitVec.ofNat 32 (startStep (lastObs x b t f)) := by
  rw [val_main_call2_v4_apply, val_main_call2_v1_apply, v7_apply, val_main_call2_v0_apply, val_main_call2_c_apply,
    slt_step _ (startStep_lt (lastObs_lt x b t f)), select_zero]

/-- The reshaped start indices at (b, t, f, 0). -/
theorem call2_v5_apply (z : Fin 1) :
    val_main_call2_v5 (F := Ideal) x (ix4 b t f z) = BitVec.ofNat 32 (startStep (lastObs x b t f)) := by
  rw [val_main_call2_v5_apply]
  have hi : idx_main_call2_v5 (ix4 b t f z) = ix3 b t f := by
    funext a
    have hb := b.isLt; have ht := t.isLt; have hf := f.isLt; have hz := z.isLt
    match a with
    | ⟨0, _⟩ => exact Fin.ext (by show (((b.val * 2048 + t.val) * 64 + f.val) * 1 + z.val) / 131072 = b.val; omega)
    | ⟨1, _⟩ => exact Fin.ext (by show (((b.val * 2048 + t.val) * 64 + f.val) * 1 + z.val) / 64 % 2048 = t.val; omega)
    | ⟨2, _⟩ => exact Fin.ext (by show (((b.val * 2048 + t.val) * 64 + f.val) * 1 + z.val) % 64 = f.val; omega)
  rw [hi, call2_v4_apply]

end Stages

/-! ## The in-range mask and the gather -/

/-- A fold by `and` from 1 over words that are all 1 is 1. -/
theorem foldl_andi_one {ι : Type} (g : ι → BitVec 1) :
    ∀ (l : List ι) (init : BitVec 1), init = 1#1 → (∀ n ∈ l, g n = 1#1) →
      l.foldl (fun r n => IntOp.andi r (g n)) init = 1#1
  | [], _, h, _ => h
  | a :: l, init, h, hl => by
    refine foldl_andi_one g l _ ?_ fun n hn => hl n (List.mem_cons_of_mem _ hn)
    show IntOp.andi init (g a) = 1#1
    rw [h, hl a (List.mem_cons_self ..)]; rfl

section Mask

variable (x : FVec Ideal S128x2048x64 .f32)

/-- Every start index is inside the time axis … -/
theorem call2_v11_apply (i : S128x2048x64x1.Idx) : val_main_call2_v11 (F := Ideal) x i = 1#1 := by
  obtain ⟨b, t, f, z, rfl⟩ : ∃ (b : Fin 128) (t : Fin 2048) (f : Fin 64) (z : Fin 1), i = ix4 b t f z :=
    ⟨i 0, i 1, i 2, i 3, eq_ix4 i⟩
  have hn := startStep_lt (lastObs_lt x b t f)
  rw [val_main_call2_v11_apply, val_main_call2_v7_apply, val_main_call2_v10_apply, call2_v5_apply,
    val_main_call2_v6_apply, val_main_call2_c_2_apply, val_main_call2_v9_apply, val_main_call2_v8_apply,
    val_main_call2_c_1_apply, sge_step _ hn, sle_step _ hn]
  rfl

/-- … so the reduced mask is 1 everywhere. -/
theorem call2_v12_apply (j : S128x2048x64.Idx) : val_main_call2_v12 (F := Ideal) x j = 1#1 := by
  unfold val_main_call2_v12
  rw [Host.reduce_eq_foldl]
  exact foldl_andi_one _ _ _ rfl fun n _ => call2_v11_apply x n

end Mask

section Gather

/-- The reference's gather along time. -/
abbrev gd : GatherDims S128x2048x64 S128x2048x64x1 S128x2048x64 :=
  gather_S128x2048x64_S128x2048x64x1_S128x2048x64_n_1_02_02_1_3_111

/-- The gather at (b, t, f) reads the operand at the start index of (b, t, f, 0), taken as a signed integer and
    clamped into the time axis; the batch row and the feature are carried over. -/
theorem gather_apply {α : Type} (y : S128x2048x64.Idx → α) (idx : IVec S128x2048x64x1 32)
    (b : Fin 128) (t : Fin 2048) (f : Fin 64) (n : ℕ) (hn : n < 2048)
    (h : idx (ix4 b t f (0 : Fin 1)) = BitVec.ofNat 32 n) :
    Host.gather gd y idx (ix3 b t f) = y (ix3 b ⟨n, hn⟩ f) := by
  unfold Host.gather
  congr 1
  funext a
  refine Fin.ext ?_
  have m0 : (⟨0, by decide⟩ : Fin S128x2048x64.rank) ∈ gd.operandBatchingDims := by decide
  have m2 : (⟨2, by decide⟩ : Fin S128x2048x64.rank) ∈ gd.operandBatchingDims := by decide
  have n1 : (⟨1, by decide⟩ : Fin S128x2048x64.rank) ∉ gd.operandBatchingDims := by decide
  have c1 : (⟨1, by decide⟩ : Fin S128x2048x64.rank) ∈ gd.collapsedSliceDims := by decide
  have s1 : (⟨1, by decide⟩ : Fin S128x2048x64.rank) ∈ gd.startIndexMap := by decide
  match a with
  | ⟨0, _⟩ =>
    show gd.start (ix3 b t f) idx ⟨0, _⟩ + gd.batchCoord (ix3 b t f) ⟨0, _⟩ + gd.offCoord (ix3 b t f) ⟨0, _⟩ = b.val
    rw [gd.start_batching _ _ _ m0, gd.offCoord_eq_zero _ _ (fun h => ((gd.mem_sKept _).mp h).2 m0)]
    unfold GatherDims.batchCoord
    rw [dif_pos m0, Nat.add_zero, Nat.zero_add]
    rfl
  | ⟨1, _⟩ =>
    show gd.start (ix3 b t f) idx ⟨1, _⟩ + gd.batchCoord (ix3 b t f) ⟨1, _⟩ + gd.offCoord (ix3 b t f) ⟨1, _⟩ = n
    rw [gd.batchCoord_eq_zero _ _ n1, gd.offCoord_eq_zero _ _ (fun h => ((gd.mem_sKept _).mp h).1 c1)]
    unfold GatherDims.start
    rw [dif_pos s1]
    have hsi : gd.siIdx (ix3 b t f) ⟨List.idxOf (⟨1, by decide⟩ : Fin S128x2048x64.rank) gd.startIndexMap,
        List.idxOf_lt_length_iff.2 s1⟩ = ix4 b t f (0 : Fin 1) := by
      funext c; refine Fin.ext ?_
      match c with
      | ⟨0, _⟩ => rfl
      | ⟨1, _⟩ => rfl
      | ⟨2, _⟩ => rfl
      | ⟨3, _⟩ => rfl
    rw [hsi, h]
    show min (BitVec.ofNat 32 n).toInt.toNat 2047 + 0 + 0 = n
    rw [clamp_step n hn]
    rfl
  | ⟨2, _⟩ =>
    show gd.start (ix3 b t f) idx ⟨2, _⟩ + gd.batchCoord (ix3 b t f) ⟨2, _⟩ + gd.offCoord (ix3 b t f) ⟨2, _⟩ = f.val
    rw [gd.start_batching _ _ _ m2, gd.offCoord_eq_zero _ _ (fun h => ((gd.mem_sKept _).mp h).2 m2)]
    unfold GatherDims.batchCoord
    rw [dif_pos m2, Nat.add_zero, Nat.zero_add]
    rfl

end Gather

/-! ## The fill, the indicator, and the two halves of the result -/

section Fill

variable (x : FVec Ideal S128x2048x64 .f32) (b : Fin 128) (t : Fin 2048) (f : Fin 64)

/-- The gather reads the entry at the start step. -/
theorem call2_v13_apply (n : ℕ) (hn : n < 2048) (h : startStep (lastObs x b t f) = n) :
    val_main_call2_v13 (F := Ideal) x (ix3 b t f) = x (ix3 b ⟨n, hn⟩ f) := by
  unfold val_main_call2_v13
  exact gather_apply x _ b t f n hn ((call2_v5_apply x b t f 0).trans (congrArg _ h))

/-- Taking along time at (b, t, f): the mask is 1, so the gathered entry is kept. -/
theorem v8_apply (n : ℕ) (hn : n < 2048) (h : startStep (lastObs x b t f) = n) :
    val_main_v8 (F := Ideal) x (ix3 b t f) = x (ix3 b ⟨n, hn⟩ f) := by
  rw [val_main_v8_apply, call2_v12_apply, select_one, call2_v13_apply x b t f n hn h]

/-- The fill stage is the forward fill. -/
theorem v11_apply : val_main_v11 (F := Ideal) x (ix3 b t f) = filled x b t f := by
  rw [val_main_v11_apply, val_main_v10_apply, cummax_apply, val_main_v9_apply, val_main_c_1_apply]
  unfold filled
  cases hL : lastGe (valid x b f) 0 t.val with
  | none =>
    show Scalar.select (IntOp.cmpi .sge 4294967295#32 0#32) _ _ = x (ix3 b t f)
    rw [sge_neg_one, select_zero]
  | some i =>
    have hi : i < 2048 := lastObs_lt x b t f i hL
    have hs : startStep (lastObs x b t f) = i := by
      show (lastGe (valid x b f) 0 t.val).getD 0 = i
      rw [hL]; rfl
    show Scalar.select (IntOp.cmpi .sge (BitVec.ofNat 32 i) 0#32) _ _ = col x b f i
    rw [sge_step i hi, select_one, v8_apply x b t f i hi hs, col_of_lt x b f i hi]

/-- The indicator stage is the missingness indicator. -/
theorem v12_apply (i : S128x2048x64.Idx) : val_main_v12 (F := Ideal) x i = indicator (x i) := by
  rw [val_main_v12_apply, val_main_v1_apply, val_main_v0_apply, val_main_cst_apply]
  rfl

end Fill

/-- The reference's result stage, as a function of the input array, is the specification. -/
theorem result_eq (x : FVec Ideal S128x2048x64 .f32) :
    Cert.ReferenceIdeal.ReadP.val_main_v13 (F := Ideal) x = result x := by
  funext j
  obtain ⟨b, t, c, rfl⟩ : ∃ (b : Fin 128) (t : Fin 2048) (c : Fin 128), j = ix3 b t c :=
    ⟨j 0, j 1, j 2, eq_ix3 j⟩
  rw [result_ix3]
  unfold resultAt val_main_v13
  by_cases hc : c.val < 64
  · -- the first 64 features: the fill
    rw [dif_pos hc]
    refine (concatenate_pair_apply_left (t := S128x2048x128) (s₁ := S128x2048x64) (s₂ := S128x2048x64) (2 : Fin 3)
      (val_main_v11 (F := Ideal) x) (val_main_v12 (F := Ideal) x) _ (ix3 b t c) rfl
      (ix3 b t (⟨c.val, hc⟩ : Fin 64)) ?_).trans (v11_apply x b t ⟨c.val, hc⟩)
    intro a
    match a with
    | ⟨0, _⟩ => rfl
    | ⟨1, _⟩ => rfl
    | ⟨2, _⟩ => rfl
  · -- the last 64 features: the indicator of feature c - 64
    rw [dif_neg hc]
    refine (concatenate_pair_apply_right (t := S128x2048x128) (s₁ := S128x2048x64) (s₂ := S128x2048x64) (2 : Fin 3)
      (val_main_v11 (F := Ideal) x) (val_main_v12 (F := Ideal) x) _ (ix3 b t c) rfl rfl
      (ix3 b t (⟨c.val - 64, by omega⟩ : Fin 64)) ?_ ?_).trans (v12_apply x _)
    · intro a
      match a with
      | ⟨0, _⟩ => exact fun _ => rfl
      | ⟨1, _⟩ => exact fun _ => rfl
      | ⟨2, _⟩ => exact fun h => absurd rfl h
    · show c.val - 64 + 64 = c.val
      omega

end Cert.FFill.Ref

end
-- ==== Proof.lean ====
/-
  Forward-fill imputation along time, with missingness indicators: a Pallas kernel against its jnp reference.

  Input x : f32[128, 2048, 64] (batch, time, feature).  An entry is missing when it compares equal to zero.  The
  result, f32[128, 2048, 128], holds in features 0..63 the forward fill along time — the entry at the greatest
  observed time step at or before t, the entry itself when no step up to t is observed — and in features 64..127 the
  indicator of missingness.

  The kernel walks 2 batch blocks times 16 time blocks.  Inside a time block of 128 steps it finds the last observed
  value by seven doubling rounds of rotate-and-select (a prefix scan of the "last observed wins" monoid), and across
  time blocks it carries the last observed value and a flag in two scratch buffers, reset at the first time block of
  a batch block.  The reference marks every entry with its time index (or -1 when missing), takes the running maximum
  along time, gathers the entry at that index and keeps the entry itself where the maximum is -1.

  Both are the one function Cert.FFill.result of the input (Proof/Spec.lean), stated through lastGe, the greatest
  observed position of a window (Proof/LastValid.lean):
    the kernel   — Proof/BodyValue.lean (one point's body), Proof/KernelPieces.lean (what a point leaves in its
                   buffers), Proof/KernelValue.lean (the induction over grid points and the array block by block);
    the reference — Proof/RefCummax.lean (the running maximum is the last observed step), Proof/RefValue.lean (the
                   gather, the selects and the concatenation), over the reference's run (Proof/RefRun.lean) read one
                   operation at a time (Proof/RefRead.lean).
  No float arithmetic is involved beyond the comparison with zero, so the precondition is not used by the value claim;
  the ideal pass rewrote nothing, so the preservation claim is trivial.
-/
import proofs.«111630_j72773925864084_1_alg».proof.Defs
import proofs.«111630_j72773925864084_1_alg».proof.Proof.Gen.Kernel
import proofs.«111630_j72773925864084_1_alg».proof.Proof.Gen.Kernel.Frame
import proofs.«111630_j72773925864084_1_alg».proof.Proof.Gen.KernelIdeal
import proofs.«111630_j72773925864084_1_alg».proof.Proof.Gen.KernelIdeal.Frame
import proofs.«111630_j72773925864084_1_alg».proof.Proof.Gen.KernelIdeal.Value
import proofs.«111630_j72773925864084_1_alg».proof.Proof.Gen.ReferenceIdeal
import proofs.«111630_j72773925864084_1_alg».proof.Proof.Gen.Pre_finite_inputs
import proofs.«111630_j72773925864084_1_alg».proof.Proof.KernelValue
import proofs.«111630_j72773925864084_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument alone. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The reference is a host program: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the specification of the (shared) input array in their result. -/
theorem algebraic : Cert.algebraic_KernelIdeal_ReferenceIdeal := by
  intro m ρ m' ρ' _ hagree
  refine ⟨fun c => Cert.FFill.result (m ((c.tc : Thread Cert.KernelIdeal.nD Cert.KernelIdeal.τ).loc Cert.KernelIdeal.main_arg0)),
    Cert.KernelIdeal.FillValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v13_eq, Cert.FFill.Ref.result_eq, hagree c]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
